-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S_ : Shape := ⟨0, ![]⟩

class Facts : Prop where
  bcast_S_S64x4096x32 : S_.BroadcastsInDim S64x4096x32 (![] : Fin 0 → Fin S64x4096x32.rank)
  reducesTo_S64x4096x32_S_d0_1_2 : S64x4096x32.ReducesTo [0, 1, 2] S_
  h_S_ : 0 < S_.numel
  bcast_S_S64x32x3 : S_.BroadcastsInDim S64x32x3 (![] : Fin 0 → Fin S64x32x3.rank)
  reducesTo_S64x32x3_S_d0_1_2 : S64x32x3.ReducesTo [0, 1, 2] S_
  bcast_S_S64x32 : S_.BroadcastsInDim S64x32 (![] : Fin 0 → Fin S64x32.rank)
  reducesTo_S64x32_S_d0_1 : S64x32.ReducesTo [0, 1] S_
  bcast_S_S1x1x32 : S_.BroadcastsInDim S1x1x32 (![] : Fin 0 → Fin S1x1x32.rank)
  reducesTo_S1x1x32_S_d0_1_2 : S1x1x32.ReducesTo [0, 1, 2] S_

variable [Facts]

def fn_part1 {F : FTy → Type} [FloatOps F] (main_arg4 : FVec F S1x1x32 .f32) (main_arg5 : FVec F S1x1x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S1x1x32 .f32 := Host.absf main_arg4
  let main_cst_6 : FVec F S_ .f32 := constant S_ .f32 0x7F800000#32
  let main_v20 : FVec F S1x1x32 .f32 := broadcastInDim S1x1x32 ![] bcast_S_S1x1x32 main_cst_6
  let main_v21 : IVec S1x1x32 1 := cmpf .olt main_v19 main_v20
  let main_c_7 : IVec S_ 1 := constantI S_ 1 1#1
  let main_v22 : IVec S_ 1 := (fun x v => Host.reduce IntOp.andi x v reducesTo_S1x1x32_S_d0_1_2 h_S_) main_v21 main_c_7
  let main_v23 : IVec S_ 1 := andi main_v18 main_v22
  let main_v24 : FVec F S1x1x32 .f32 := Host.absf main_arg5
  let main_cst_8 : FVec F S_ .f32 := constant S_ .f32 0x7F800000#32
  let main_v25 : FVec F S1x1x32 .f32 := broadcastInDim S1x1x32 ![] bcast_S_S1x1x32 main_cst_8
  let main_v26 : IVec S1x1x32 1 := cmpf .olt main_v24 main_v25
  let main_c_9 : IVec S_ 1 := constantI S_ 1 1#1
  let main_v27 : IVec S_ 1 := (fun x v => Host.reduce IntOp.andi x v reducesTo_S1x1x32_S_d0_1_2 h_S_) main_v26 main_c_9
  let main_v28 : IVec S_ 1 := andi main_v23 main_v27
  main_v28

def fn {F : FTy → Type} [FloatOps F] (main_arg0 : FVec F S64x4096x32 .f32) (main_arg1 : FVec F S64x4096x32 .f32) (main_arg2 : FVec F S64x32x3 .f32) (main_arg3 : FVec F S64x32 .f32) (main_arg4 : FVec F S1x1x32 .f32) (main_arg5 : FVec F S1x1x32 .f32) : IVec S_ 1 :=
  let main_v0 : FVec F S64x4096x32 .f32 := Host.absf main_arg0
  let main_cst : FVec F S_ .f32 := constant S_ .f32 0x7F800000#32
  let main_v1 : FVec F S64x4096x32 .f32 := broadcastInDim S64x4096x32 ![] bcast_S_S64x4096x32 main_cst
  let main_v2 : IVec S64x4096x32 1 := cmpf .olt main_v0 main_v1
  let main_c : IVec S_ 1 := constantI S_ 1 1#1
  let main_v3 : IVec S_ 1 := (fun x v => Host.reduce IntOp.andi x v reducesTo_S64x4096x32_S_d0_1_2 h_S_) main_v2 main_c
  let main_v4 : FVec F S64x4096x32 .f32 := Host.absf main_arg1
  let main_cst_0 : FVec F S_ .f32 := constant S_ .f32 0x7F800000#32
  let main_v5 : FVec F S64x4096x32 .f32 := broadcastInDim S64x4096x32 ![] bcast_S_S64x4096x32 main_cst_0
  let main_v6 : IVec S64x4096x32 1 := cmpf .olt main_v4 main_v5
  let main_c_1 : IVec S_ 1 := constantI S_ 1 1#1
  let main_v7 : IVec S_ 1 := (fun x v => Host.reduce IntOp.andi x v reducesTo_S64x4096x32_S_d0_1_2 h_S_) main_v6 main_c_1
  let main_v8 : IVec S_ 1 := andi main_v3 main_v7
  let main_v9 : FVec F S64x32x3 .f32 := Host.absf main_arg2
  let main_cst_2 : FVec F S_ .f32 := constant S_ .f32 0x7F800000#32
  let main_v10 : FVec F S64x32x3 .f32 := broadcastInDim S64x32x3 ![] bcast_S_S64x32x3 main_cst_2
  let main_v11 : IVec S64x32x3 1 := cmpf .olt main_v9 main_v10
  let main_c_3 : IVec S_ 1 := constantI S_ 1 1#1
  let main_v12 : IVec S_ 1 := (fun x v => Host.reduce IntOp.andi x v reducesTo_S64x32x3_S_d0_1_2 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S64x1x32 : Shape := ⟨3, ![64, 1, 32]⟩
abbrev S1x3 : Shape := ⟨2, ![1, 3]⟩
abbrev S1x1 : Shape := ⟨2, ![1, 1]⟩
abbrev S1x4096x32 : Shape := ⟨3, ![1, 4096, 32]⟩
abbrev S1x32x3 : Shape := ⟨3, ![1, 32, 3]⟩
abbrev S4096x32 : Shape := ⟨2, ![4096, 32]⟩
abbrev S4096x3 : Shape := ⟨2, ![4096, 3]⟩
abbrev S3 : Shape := ⟨1, ![3]⟩
abbrev S4095x3 : Shape := ⟨2, ![4095, 3]⟩
abbrev S4096x1 : Shape := ⟨2, ![4096, 1]⟩
abbrev S4096x28 : Shape := ⟨2, ![4096, 28]⟩
abbrev S4096 : Shape := ⟨1, ![4096]⟩
abbrev S1x4096 : Shape := ⟨2, ![1, 4096]⟩
abbrev S1 : Shape := ⟨1, ![1]⟩
abbrev S1x1x3 : Shape := ⟨3, ![1, 1, 3]⟩
abbrev S32x3 : Shape := ⟨2, ![32, 3]⟩
abbrev S4096x1x3 : Shape := ⟨3, ![4096, 1, 3]⟩
abbrev S4096x32x3 : Shape := ⟨3, ![4096, 32, 3]⟩
abbrev S32 : Shape := ⟨1, ![32]⟩
abbrev S1x32 : Shape := ⟨2, ![1, 32]⟩
abbrev S_ : Shape := ⟨0, ![]⟩

abbrev nBuf : Space → Nat
  | .hbm => 45
  | .vmem => 15
  | .smem => 0
  | _ => 0

abbrev bufTy : (tb : Table) → Fin (tcTables nBuf tb) → BufTy
  | .hbm, ⟨0, _⟩ => ⟨S64x4096x32, .f32⟩
  | .hbm, ⟨1, _⟩ => ⟨S64x4096x32, .f32⟩
  | .hbm, ⟨2, _⟩ => ⟨S64x32x3, .f32⟩
  | .hbm, ⟨3, _⟩ => ⟨S64x32, .f32⟩
  | .hbm, ⟨4, _⟩ => ⟨S1x1x32, .f32⟩
  | .hbm, ⟨5, _⟩ => ⟨S1x1x32, .f32⟩
  | .hbm, ⟨6, _⟩ => ⟨S64x1x32, .f32⟩
  | .hbm, ⟨7, _⟩ => ⟨S1x3, .f32⟩
  | .hbm, ⟨8, _⟩ => ⟨S1x3, .f32⟩
  | .hbm, ⟨9, _⟩ => ⟨S1x3, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S1x3, .f32⟩
  | .hbm, ⟨14, _⟩ => ⟨S1x3, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x3, .f32⟩
  | .hbm, ⟨19, _⟩ => ⟨S1x3, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x3, .f32⟩
  | .hbm, ⟨27, _⟩ => ⟨S1x3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x4096x32, .f32⟩
  | .local _ .vmem, ⟨1, _⟩ => ⟨S1x4096x32, .f32⟩
  | .local _ .vmem, ⟨2, _⟩ => ⟨S1x4096x32, .f32⟩
  | .local _ .vmem, ⟨3, _⟩ => ⟨S1x4096x32, .f32⟩
  | .local _ .vmem, ⟨4, _⟩ => ⟨S1x32x3, .f32⟩
  | .local _ .vmem, ⟨5, _⟩ => ⟨S1x32x3, .f32⟩
  | .local _ .vmem, ⟨6, _⟩ => ⟨S1x1x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x3, .f32⟩
  | .local _ .vmem, ⟨11, _⟩ => ⟨S1x3, .f32⟩
  | .local _ .vmem, ⟨12, _⟩ => ⟨S1x3, .f32⟩
  | .local _ .vmem, ⟨13, _⟩ => ⟨S1x1, .f32⟩
  | .local _ .vmem, ⟨14, _⟩ => ⟨S1x1, .f32⟩
  | _, _ => ⟨S64x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_cst_8 : Ref sig .tc := ⟨.hbm, 36, rfl⟩
abbrev main_v17 : Ref sig .tc := ⟨.hbm, 37, rfl⟩
abbrev main_cst_9 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_10 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  shapeCasts_S64x32_S64x1x32 : S64x32.ShapeCasts S64x1x32
  inb_S1x3_S1x3_0_0 : ∀ a, (![0, 0] : Fin 2 → Nat) a + S1x3.size a ≤ S1x3.size a
  h_S1x3 : 0 < S1x3.numel
  inb_S1x1_S1x1_0_0 : ∀ a, (![0, 0] : Fin 2 → Nat) a + S1x1.size a ≤ S1x1.size a
  h_S1x1 : 0 < S1x1.numel
  inb_S1x4096x32_S1x4096x32_0_0_0 : ∀ a, (![0, 0, 0] : Fin 3 → Nat) a + S1x4096x32.size a ≤ S1x4096x32.size a
  h_S1x4096x32 : 0 < S1x4096x32.numel
  shapeCasts_S1x4096x32_S4096x32 : S1x4096x32.ShapeCasts S4096x32
  slices_S4096x32_o0_1_S4096x3 : S4096x32.Slices ![0, 1] S4096x3
  shapeCasts_S1x3_S1x3 : S1x3.ShapeCasts S1x3
  reduces_S4096x3_S3 : S4096x3.Reduces [0] S3
  shapeCasts_S3_S1x3 : S3.ShapeCasts S1x3
  slices_S4096x3_o4095_0_S1x3 : S4096x3.Slices ![4095, 0] S1x3
  slices_S4096x3_o1_0_S4095x3 : S4096x3.Slices ![1, 0] S4095x3
  slices_S4096x3_o0_0_S4095x3 : S4096x3.Slices ![0, 0] S4095x3
  reduces_S4095x3_S3 : S4095x3.Reduces [0] S3
  slices_S4096x32_o0_0_S4096x1 : S4096x32.Slices ![0, 0] S4096x1
  slices_S4096x32_o0_4_S4096x28 : S4096x32.Slices ![0, 4] S4096x28
  reduces_S4096x1_S4096 : S4096x1.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  reduces_S4096x28_S4096 : S4096x28.Reduces [1] S4096
  shapeCasts_S1x1_S1x1 : S1x1.ShapeCasts S1x1
  inb_S1x1x32_S1x1x32_0_0_0 : ∀ a, (![0, 0, 0] : Fin 3 → Nat) a + S1x1x32.size a ≤ S1x1x32.size a
  h_S1x1x32 : 0 < S1x1x32.numel
  slices_S1x1x32_o0_0_1_S1x1x3 : S1x1x32.Slices ![0, 0, 1] S1x1x3
  shapeCasts_S1x1x3_S3 : S1x1x3.ShapeCasts S3
  broadcasts_S1x3_S4096x3 : S1x3.Broadcasts S4096x3
  inb_S1x32x3_S1x32x3_0_0_0 : ∀ a, (![0, 0, 0] : Fin 3 → Nat) a + S1x32x3.size a ≤ S1x32x3.size a
  h_S1x32x3 : 0 < S1x32x3.numel
  shapeCasts_S1x32x3_S32x3 : S1x32x3.ShapeCasts S32x3
  shapeCasts_S4096x3_S4096x1x3 : S4096x3.ShapeCasts S4096x1x3
  shapeCasts_S32x3_S1x32x3 : S32x3.ShapeCasts S1x32x3
  broadcasts_S4096x1x3_S4096x32x3 : S4096x1x3.Broadcasts S4096x32x3
  broadcasts_S1x32x3_S4096x32x3 : S1x32x3.Broadcasts S4096x32x3
  reduces_S4096x32x3_S4096x32 : S4096x32x3.Reduces [2] S4096x32
  shapeCasts_S1x1x32_S1x1x32 : S1x1x32.ShapeCasts S1x1x32
  shapeCasts_S1x1x32_S32 : S1x1x32.ShapeCasts S32
  shapeCasts_S32_S1x32 : S32.ShapeCasts S1x32
  broadcasts_S1x32_S4096x32 : S1x32.Broadcasts S4096x32
  reduces_S4096x32_S4096 : S4096x32.Reduces [1] S4096
  bcast_S_S1x3 : S_.BroadcastsInDim S1x3 (![] : Fin 0 → Fin S1x3.rank)
  reducesTo_S1x3_S_d0_1 : S1x3.ReducesTo [0, 1] S_
  h_S_ : 0 < S_.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x32.size a ≤ S64x4096x32.size a
  hwx0_0 : ∀ i : grid0.Coords, EltTy.bits .f32 = 32 ∨ (Rect.block (s := S64x4096x32) S1x4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x32.size a ≤ S64x4096x32.size a
  hwx0_1 : ∀ i : grid0.Coords, EltTy.bits .f32 = 32 ∨ (Rect.block (s := S64x4096x32) S1x4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x3.size a ≤ S64x32x3.size a
  hwx0_2 : ∀ i : grid0.Coords, EltTy.bits .f32 = 32 ∨ (Rect.block (s := S64x32x3) S1x32x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32.size a ≤ S64x1x32.size a
  hwx0_3 : ∀ i : grid0.Coords, EltTy.bits .f32 = 32 ∨ (Rect.block (s := S64x1x32) S1x1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S1x1x32.size a
  hwx0_4 : ∀ i : grid0.Coords, EltTy.bits .f32 = 32 ∨ (Rect.block (s := S1x1x32) S1x1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S1x1x32.size a
  hwx0_5 : ∀ i : grid0.Coords, EltTy.bits .f32 = 32 ∨ (Rect.block (s := S1x1x32) S1x1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)

variable [Facts₀]

abbrev win0_0 : Pipeline.Window sig grid0 :=
  Pipeline.Window.ofSpec (Memref.whole main_arg0) S1x4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_0) S1x3.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_1) S1x3.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_2) S1x3.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_3) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1_4) S1x1.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x4096x32 : Shape := ⟨3, ![64, 4096, 32]⟩
abbrev S64x32x3 : Shape := ⟨3, ![64, 32, 3]⟩
abbrev S64x32 : Shape := ⟨2, ![64, 32]⟩
abbrev S1x1x32 : Shape := ⟨3, ![1, 1, 32]⟩
abbrev S64x4096x3 : Shape := ⟨3, ![64, 4096, 3]⟩
abbrev S_ : Shape := ⟨0, ![]⟩
abbrev S3 : Shape := ⟨1, ![3]⟩
abbrev S64x1x3 : Shape := ⟨3, ![64, 1, 3]⟩
abbrev S64x3 : Shape := ⟨2, ![64, 3]⟩
abbrev S64x4095x3 : Shape := ⟨3, ![64, 4095, 3]⟩
abbrev S64x4096x1 : Shape := ⟨3, ![64, 4096, 1]⟩
abbrev S64x4096x28 : Shape := ⟨3, ![64, 4096, 28]⟩
abbrev S64x4096x29 : Shape := ⟨3, ![64, 4096, 29]⟩
abbrev S1x1x3 : Shape := ⟨3, ![1, 1, 3]⟩
abbrev S64x4096 : Shape := ⟨2, ![64, 4096]⟩
abbrev S64x1x32 : Shape := ⟨3, ![64, 1, 32]⟩

abbrev nBuf : Space → Nat
  | .hbm => 113
  | .vmem => 0
  | .smem => 0
  | _ => 0

abbrev bufTy : (tb : Table) → Fin (tcTables nBuf tb) → BufTy
  | .hbm, ⟨0, _⟩ => ⟨S64x4096x32, .f32⟩
  | .hbm, ⟨1, _⟩ => ⟨S64x4096x32, .f32⟩
  | .hbm, ⟨2, _⟩ => ⟨S64x32x3, .f32⟩
  | .hbm, ⟨3, _⟩ => ⟨S64x32, .f32⟩
  | .hbm, ⟨4, _⟩ => ⟨S1x1x32, .f32⟩
  | .hbm, ⟨5, _⟩ => ⟨S1x1x32, .f32⟩
  | .hbm, ⟨6, _⟩ => ⟨S64x4096x3, .f32⟩
  | .hbm, ⟨7, _⟩ => ⟨S64x4096x3, .f32⟩
  | .hbm, ⟨8, _⟩ => ⟨S64x4096x3, .f32⟩
  | .hbm, ⟨9, _⟩ => ⟨S64x4096x3, .f32⟩
  | .hbm, ⟨10, _⟩ => ⟨S_, .f32⟩
  | .hbm, ⟨11, _⟩ => ⟨S3, .f32⟩
  | .hbm, ⟨12, _⟩ => ⟨S_, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S_, .f32⟩
  | .hbm, ⟨17, _⟩ => ⟨S64x1x3, .f32⟩
  | .hbm, ⟨18, _⟩ => ⟨S64x3, .f32⟩
  | .hbm, ⟨19, _⟩ => ⟨S64x1x3, .f32⟩
  | .hbm, ⟨20, _⟩ => ⟨S64x3, .f32⟩
  | .hbm, ⟨21, _⟩ => ⟨S64x3, .f32⟩
  | .hbm, ⟨22, _⟩ => ⟨S64x3, .f32⟩
  | .hbm, ⟨23, _⟩ => ⟨S_, .f32⟩
  | .hbm, ⟨24, _⟩ => ⟨S3, .f32⟩
  | .hbm, ⟨25, _⟩ => ⟨S_, .f32⟩
  | .hbm, ⟨26, _⟩ => ⟨S3, .f32⟩
  | .hbm, ⟨27, _⟩ => ⟨S3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64x4095x3, .f32⟩
  | .hbm, ⟨34, _⟩ => ⟨S64x4095x3, .f32⟩
  | .hbm, ⟨35, _⟩ => ⟨S64x4095x3, .f32⟩
  | .hbm, ⟨36, _⟩ => ⟨S64x4095x3, .f32⟩
  | .hbm, ⟨37, _⟩ => ⟨S64x4095x3, .f32⟩
  | .hbm, ⟨38, _⟩ => ⟨S64x4095x3, .f32⟩
  | .hbm, ⟨39, _⟩ => ⟨S64x4095x3, .f32⟩
  | .hbm, ⟨40, _⟩ => ⟨S64x4095x3, .f32⟩
  | .hbm, ⟨41, _⟩ => ⟨S_, .f32⟩
  | .hbm, ⟨42, _⟩ => ⟨S3, .f32⟩
  | .hbm, ⟨43, _⟩ => ⟨S_, .f32⟩
  | .hbm, ⟨44, _⟩ => ⟨S3, .f32⟩
  | .hbm, ⟨45, _⟩ => ⟨S3, .f32⟩
  | .hbm, ⟨46, _⟩ => ⟨S_, .f32⟩
  | .hbm, ⟨47, _⟩ => ⟨S_, .f32⟩
  | .hbm, ⟨48, _⟩ => ⟨S64x4096x1, .f32⟩
  | .hbm, ⟨49, _⟩ => ⟨S64x4096x28, .f32⟩
  | .hbm, ⟨50, _⟩ => ⟨S64x4096x29, .f32⟩
  | .hbm, ⟨51, _⟩ => ⟨S64x4096x1, .f32⟩
  | .hbm, ⟨52, _⟩ => ⟨S64x4096x28, .f32⟩
  | .hbm, ⟨53, _⟩ => ⟨S64x4096x29, .f32⟩
  | .hbm, ⟨54, _⟩ => ⟨S64x4096x29, .f32⟩
  | .hbm, ⟨55, _⟩ => ⟨S64x4096x29, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1x3, .f32⟩
  | .hbm, ⟨61, _⟩ => ⟨S3, .f32⟩
  | .hbm, ⟨62, _⟩ => ⟨S1x1x3, .f32⟩
  | .hbm, ⟨63, _⟩ => ⟨S64x4096x3, .f32⟩
  | .hbm, ⟨64, _⟩ => ⟨S64x4096x3, .f32⟩
  | .hbm, ⟨65, _⟩ => ⟨S1x1x3, .f32⟩
  | .hbm, ⟨66, _⟩ => ⟨S3, .f32⟩
  | .hbm, ⟨67, _⟩ => ⟨S1x1x3, .f32⟩
  | .hbm, ⟨68, _⟩ => ⟨S64x4096x3, .f32⟩
  | .hbm, ⟨69, _⟩ => ⟨S64x4096x3, .f32⟩
  | .hbm, ⟨70, _⟩ => ⟨S64x4096x3, .f32⟩
  | .hbm, ⟨71, _⟩ => ⟨S_, .f32⟩
  | .hbm, ⟨72, _⟩ => ⟨S64x4096, .f32⟩
  | .hbm, ⟨73, _⟩ => ⟨S64x32x3, .f32⟩
  | .hbm, ⟨74, _⟩ => ⟨S_, .f32⟩
  | .hbm, ⟨75, _⟩ => ⟨S64x32, .f32⟩
  | .hbm, ⟨76, _⟩ => ⟨S64x4096x32, .f32⟩
  | .hbm, ⟨77, _⟩ => ⟨S64x4096x1, .f32⟩
  | .hbm, ⟨78, _⟩ => ⟨S64x1x32, .f32⟩
  | .hbm, ⟨79, _⟩ => ⟨S64x4096x32, .f32⟩
  | .hbm, ⟨80, _⟩ => ⟨S64x4096x32, .f32⟩
  | .hbm, ⟨81, _⟩ => ⟨S64x4096x32, .f32⟩
  | .hbm, ⟨82, _⟩ => ⟨S_, .f32⟩
  | .hbm, ⟨83, _⟩ => ⟨S64x4096x32, .f32⟩
  | .hbm, ⟨84, _⟩ => ⟨S64x4096x32, .f32⟩
  | .hbm, ⟨85, _⟩ => ⟨S64x4096x32, .f32⟩
  | .hbm, ⟨86, _⟩ => ⟨S_, .f32⟩
  | .hbm, ⟨87, _⟩ => ⟨S64x4096x32, .f32⟩
  | .hbm, ⟨88, _⟩ => ⟨S64x4096x32, .f32⟩
  | .hbm, ⟨89, _⟩ => ⟨S64x4096x32, .f32⟩
  | .hbm, ⟨90, _⟩ => ⟨S64x1x32, .f32⟩
  | .hbm, ⟨91, _⟩ => ⟨S_, .f32⟩
  | .hbm, ⟨92, _⟩ => ⟨S64x1x32, .f32⟩
  | .hbm, ⟨93, _⟩ => ⟨S64x1x32, .f32⟩
  | .hbm, ⟨94, _⟩ => ⟨S64x4096x32, .f32⟩
  | .hbm, ⟨95, _⟩ => ⟨S64x4096x32, .f32⟩
  | .hbm, ⟨96, _⟩ => ⟨S_, .f32⟩
  | .hbm, ⟨97, _⟩ => ⟨S64x4096x32, .f32⟩
  | .hbm, ⟨98, _⟩ => ⟨S64x4096x32, .f32⟩
  | .hbm, ⟨99, _⟩ => ⟨S64x4096x32, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S64x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_cst_20 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  slices_S64x4096x32_S64x4096x3_0_0_1 : S64x4096x32.Slices ![0, 0, 1] S64x4096x3
  reducesTo_S64x4096x3_S3_d0_1 : S64x4096x3.ReducesTo [0, 1] S3
  h_S_ : 0 < S_.numel
  bcast_S_S3 : S_.BroadcastsInDim S3 (![] : Fin 0 → Fin S3.rank)
  reducesTo_S3_S_d0 : S3.ReducesTo [0] S_
  slices_S64x4096x3_S64x1x3_0_4095_0 : S64x4096x3.Slices ![0, 4095, 0] S64x1x3
  shapeCasts_S64x1x3_S64x3 : S64x1x3.ShapeCasts S64x3
  reducesTo_S64x3_S3_d0 : S64x3.ReducesTo [0] S3
  slices_S64x4096x3_S64x4095x3_0_1_0 : S64x4096x3.Slices ![0, 1, 0] S64x4095x3
  slices_S64x4096x3_S64x4095x3_0_0_0 : S64x4096x3.Slices ![0, 0, 0] S64x4095x3
  reducesTo_S64x4095x3_S3_d0_1 : S64x4095x3.ReducesTo [0, 1] S3
  slices_S64x4096x32_S64x4096x1_0_0_0 : S64x4096x32.Slices ![0, 0, 0] S64x4096x1
  slices_S64x4096x32_S64x4096x28_0_0_4 : S64x4096x32.Slices ![0, 0, 4] S64x4096x28
  concatenates_S64x4096x1_S64x4096x28_S64x4096x29_d2 : Shape.Concatenates [S64x4096x1, S64x4096x28] S64x4096x29 2
  reducesTo_S64x4096x29_S_d0_1_2 : S64x4096x29.ReducesTo [0, 1, 2] S_
  slices_S1x1x32_S1x1x3_0_0_1 : S1x1x32.Slices ![0, 0, 1] S1x1x3
  shapeCasts_S1x1x3_S3 : S1x1x3.ShapeCasts S3
  bcast_S3_S1x1x3_2 : S3.BroadcastsInDim S1x1x3 (![2] : Fin 1 → Fin S1x1x3.rank)
  bcast_S1x1x3_S64x4096x3_0_1_2 : S1x1x3.BroadcastsInDim S64x4096x3 (![0, 1, 2] : Fin 3 → Fin S64x4096x3.rank)
  reducesTo_S64x4096x3_S64x4096_d2 : S64x4096x3.ReducesTo [2] S64x4096
  reducesTo_S64x32x3_S64x32_d2 : S64x32x3.ReducesTo [2] S64x32
  bcast_S64x4096_S64x4096x1_0_1 : S64x4096.BroadcastsInDim S64x4096x1 (![0, 1] : Fin 2 → Fin S64x4096x1.rank)
  bcast_S64x32_S64x1x32_0_2 : S64x32.BroadcastsInDim S64x1x32 (![0, 2] : Fin 2 → Fin S64x1x32.rank)
  bcast_S64x4096x1_S64x4096x32_0_1_2 : S64x4096x1.BroadcastsInDim S64x4096x32 (![0, 1, 2] : Fin 3 → Fin S64x4096x32.rank)
  bcast_S64x1x32_S64x4096x32_0_1_2 : S64x1x32.BroadcastsInDim S64x4096x32 (![0, 1, 2] : Fin 3 → Fin S64x4096x32.rank)
  bcast_S_S64x4096x32 : S_.BroadcastsInDim S64x4096x32 (![] : Fin 0 → Fin S64x4096x32.rank)
  bcast_S_S64x1x32 : S_.BroadcastsInDim S64x1x32 (![] : Fin 0 → Fin S64x1x32.rank)
  reducesTo_S64x4096x32_S_d0_1_2 : S64x4096x32.ReducesTo [0, 1, 2] S_
  dot_S64x4096x3_S64x32x3_S64x4096x32_2_2_1_1_0_0_wf : DotDims.WF S64x4096x3 S64x32x3 S64x4096x32 [2] [2] [1] [1] [0] [0]

variable [Facts₀]

def dot_S64x4096x3_S64x32x3_S64x4096x32_2_2_1_1_0_0 : DotDims S64x4096x3 S64x32x3 S64x4096x32 where
  lhsContracting := [2]
  rhsContracting := [2]
  lhsNonContracting := [1]
  rhsNonContracting := [1]
  lhsBatch := [0]
  rhsBatch := [0]
  wf := dot_S64x4096x3_S64x32x3_S64x4096x32_2_2_1_1_0_0_wf

class Facts : Prop extends Facts₀ where

variable [Facts]
-- ==== Proof.Step.lean ====
/-
  What one grid step leaves in each of the five accumulator blocks, as a pure function of the step's input
  blocks and (after the first step) of the accumulators' previous contents.

  The kernel keeps five running sums in output blocks whose index never moves: the squared position error per
  coordinate, the squared error of the last position, the squared velocity error, the squared error of the
  remaining features, and the obstacle penalty.  At the first grid step each accumulator is first set to zero and
  then read back; at every later step it is read as the step before left it.  In both cases the last store into an
  accumulator covers the whole block, so the block ends holding that store's value: the step's contribution added
  to zero (first step) or to the running value (later steps).
-/
import proofs.«164508_j69492570849790_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step, accumulator 0: zero is stored, read back, and the step's contribution added to it. -/
theorem first_6 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i)
    (x0 x1 : Vec F S1x4096x32 .f32) (x2 : Vec F S1x32x3 .f32) (x3 x4 x5 : Vec F S1x1x32 .f32) :
    out0_A_6 c i a1 h1 a2 h2 a3 h3 a4 h4 a5 h5 a6 h6 a7 h7 a8 h8 a9 h9 a10 h10 a11 h11 hc x0 x1 x2 x3 x4 x5 = k0_pay11 x0 x1 k0_pay2 := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2]
  simp only [View.readAt_eq_ld, View.readCov_unit_zero (S := S1x3) _ hz2, h1.read_unread, h2.read_unread, h3.read_unread, h4.read_unread, h5.read_unread, h6.read_unread,
    View.ld_unit_zero (S := S1x4096x32) hz3, View.ld_unit_zero (S := S1x32x3) hz3, View.ld_unit_zero (S := S1x1x32) hz3]

/-- Later steps, accumulator 0: the running value is read and the step's contribution added to it. -/
theorem later_6 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i)
    (x0 x1 : Vec F S1x4096x32 .f32) (x2 : Vec F S1x32x3 .f32) (x3 x4 x5 : Vec F S1x1x32 .f32) (xo6 xo7 xo8 : Vec F S1x3 .f32) (xo9 xo10 : Vec F S1x1 .f32) :
    out0_B_6 c i a1 h1 a2 h2 a3 h3 a4 h4 a5 h5 a6 h6 a7 h7 a8 h8 a9 h9 a10 h10 a11 h11 hc x0 x1 x2 x3 x4 x5 xo6 xo7 xo8 xo9 xo10 = k0_pay11 x0 x1 xo6 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S1x3) hz2, View.ld_unit_zero (S := S1x1) hz2,
    View.ld_unit_zero (S := S1x4096x32) hz3, View.ld_unit_zero (S := S1x32x3) hz3, View.ld_unit_zero (S := S1x1x32) hz3]

/-- First step, accumulator 1: zero is stored, read back, and the step's contribution added to it. -/
theorem first_7 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i)
    (x0 x1 : Vec F S1x4096x32 .f32) (x2 : Vec F S1x32x3 .f32) (x3 x4 x5 : Vec F S1x1x32 .f32) :
    out0_A_7 c i a1 h1 a2 h2 a3 h3 a4 h4 a5 h5 a6 h6 a7 h7 a8 h8 a9 h9 a10 h10 a11 h11 hc x0 x1 x2 x3 x4 x5 = k0_pay12 x0 x1 k0_pay3 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2]
  simp only [View.readAt_eq_ld, View.readCov_unit_zero (S := S1x3) _ hz2, h1.read_unread, h2.read_unread, h3.read_unread, h4.read_unread, h5.read_unread, h6.read_unread,
    View.ld_unit_zero (S := S1x4096x32) hz3, View.ld_unit_zero (S := S1x32x3) hz3, View.ld_unit_zero (S := S1x1x32) hz3]

/-- Later steps, accumulator 1: the running value is read and the step's contribution added to it. -/
theorem later_7 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i)
    (x0 x1 : Vec F S1x4096x32 .f32) (x2 : Vec F S1x32x3 .f32) (x3 x4 x5 : Vec F S1x1x32 .f32) (xo6 xo7 xo8 : Vec F S1x3 .f32) (xo9 xo10 : Vec F S1x1 .f32) :
    out0_B_7 c i a1 h1 a2 h2 a3 h3 a4 h4 a5 h5 a6 h6 a7 h7 a8 h8 a9 h9 a10 h10 a11 h11 hc x0 x1 x2 x3 x4 x5 xo6 xo7 xo8 xo9 xo10 = k0_pay12 x0 x1 xo7 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S1x3) hz2, View.ld_unit_zero (S := S1x1) hz2,
    View.ld_unit_zero (S := S1x4096x32) hz3, View.ld_unit_zero (S := S1x32x3) hz3, View.ld_unit_zero (S := S1x1x32) hz3]

/-- First step, accumulator 2: zero is stored, read back, and the step's contribution added to it. -/
theorem first_8 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i)
    (x0 x1 : Vec F S1x4096x32 .f32) (x2 : Vec F S1x32x3 .f32) (x3 x4 x5 : Vec F S1x1x32 .f32) :
    out0_A_8 c i a1 h1 a2 h2 a3 h3 a4 h4 a5 h5 a6 h6 a7 h7 a8 h8 a9 h9 a10 h10 a11 h11 hc x0 x1 x2 x3 x4 x5 = k0_pay15 (k0_pay13 k0_pay4) (k0_pay14 x0 x1) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x3) hz2]
  simp only [View.readAt_eq_ld, View.readCov_unit_zero (S := S1x3) _ hz2, h1.read_unread, h2.read_unread, h3.read_unread, h4.read_unread, h5.read_unread, h6.read_unread,
    View.ld_unit_zero (S := S1x4096x32) hz3, View.ld_unit_zero (S := S1x32x3) hz3, View.ld_unit_zero (S := S1x1x32) hz3]

/-- Later steps, accumulator 2: the running value is read and the step's contribution added to it. -/
theorem later_8 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i)
    (x0 x1 : Vec F S1x4096x32 .f32) (x2 : Vec F S1x32x3 .f32) (x3 x4 x5 : Vec F S1x1x32 .f32) (xo6 xo7 xo8 : Vec F S1x3 .f32) (xo9 xo10 : Vec F S1x1 .f32) :
    out0_B_8 c i a1 h1 a2 h2 a3 h3 a4 h4 a5 h5 a6 h6 a7 h7 a8 h8 a9 h9 a10 h10 a11 h11 hc x0 x1 x2 x3 x4 x5 xo6 xo7 xo8 xo9 xo10 = k0_pay15 (k0_pay13 xo8) (k0_pay14 x0 x1) := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S1x3) hz2, View.ld_unit_zero (S := S1x1) hz2,
    View.ld_unit_zero (S := S1x4096x32) hz3, View.ld_unit_zero (S := S1x32x3) hz3, View.ld_unit_zero (S := S1x1x32) hz3]

/-- First step, accumulator 3: zero is stored, read back, and the step's contribution added to it. -/
theorem first_9 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i)
    (x0 x1 : Vec F S1x4096x32 .f32) (x2 : Vec F S1x32x3 .f32) (x3 x4 x5 : Vec F S1x1x32 .f32) :
    out0_A_9 c i a1 h1 a2 h2 a3 h3 a4 h4 a5 h5 a6 h6 a7 h7 a8 h8 a9 h9 a10 h10 a11 h11 hc x0 x1 x2 x3 x4 x5 = k0_pay16 (k0_pay7 x0) (k0_pay8 x1) k0_pay5 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1) hz2]
  simp only [View.readAt_eq_ld, View.readCov_unit_zero (S := S1x1) _ hz2, h1.read_unread, h2.read_unread, h3.read_unread, h4.read_unread, h5.read_unread, h6.read_unread,
    View.ld_unit_zero (S := S1x4096x32) hz3, View.ld_unit_zero (S := S1x32x3) hz3, View.ld_unit_zero (S := S1x1x32) hz3]

/-- Later steps, accumulator 3: the running value is read and the step's contribution added to it. -/
theorem later_9 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i)
    (x0 x1 : Vec F S1x4096x32 .f32) (x2 : Vec F S1x32x3 .f32) (x3 x4 x5 : Vec F S1x1x32 .f32) (xo6 xo7 xo8 : Vec F S1x3 .f32) (xo9 xo10 : Vec F S1x1 .f32) :
    out0_B_9 c i a1 h1 a2 h2 a3 h3 a4 h4 a5 h5 a6 h6 a7 h7 a8 h8 a9 h9 a10 h10 a11 h11 hc x0 x1 x2 x3 x4 x5 xo6 xo7 xo8 xo9 xo10 = k0_pay16 (k0_pay7 x0) (k0_pay8 x1) xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S1x3) hz2, View.ld_unit_zero (S := S1x1) hz2,
    View.ld_unit_zero (S := S1x4096x32) hz3, View.ld_unit_zero (S := S1x32x3) hz3, View.ld_unit_zero (S := S1x1x32) hz3]

/-- First step, accumulator 4: zero is stored, read back, and the step's contribution added to it. -/
theorem first_10 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : cond0_0 i)
    (x0 x1 : Vec F S1x4096x32 .f32) (x2 : Vec F S1x32x3 .f32) (x3 x4 x5 : Vec F S1x1x32 .f32) :
    out0_A_10 c i a1 h1 a2 h2 a3 h3 a4 h4 a5 h5 a6 h6 a7 h7 a8 h8 a9 h9 a10 h10 a11 h11 hc x0 x1 x2 x3 x4 x5 = k0_pay1 (k0_pay17 (k0_pay9 x0) x4 x5) x2 x3 k0_pay6 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5)]
  unfold kernelRun0_A
  dsimp only
  sl_unfold_words
  rw [View.canon_cons_unit_zero (S := S1x1) hz2]
  simp only [View.readAt_eq_ld, View.readCov_unit_zero (S := S1x1) _ hz2, h1.read_unread, h2.read_unread, h3.read_unread, h4.read_unread, h5.read_unread, h6.read_unread,
    View.ld_unit_zero (S := S1x4096x32) hz3, View.ld_unit_zero (S := S1x32x3) hz3, View.ld_unit_zero (S := S1x1x32) hz3]

/-- Later steps, accumulator 4: the running value is read and the step's contribution added to it. -/
theorem later_10 (c : Dev nD) (i : grid0.Coords) (a1 : Memref sig .tc .vmem S1x4096x32 .f32) (h1 : a1.IsWhole) (a2 : Memref sig .tc .vmem S1x4096x32 .f32) (h2 : a2.IsWhole) (a3 : Memref sig .tc .vmem S1x32x3 .f32) (h3 : a3.IsWhole) (a4 : Memref sig .tc .vmem S1x1x32 .f32) (h4 : a4.IsWhole) (a5 : Memref sig .tc .vmem S1x1x32 .f32) (h5 : a5.IsWhole) (a6 : Memref sig .tc .vmem S1x1x32 .f32) (h6 : a6.IsWhole) (a7 : Memref sig .tc .vmem S1x3 .f32) (h7 : a7.IsWhole) (a8 : Memref sig .tc .vmem S1x3 .f32) (h8 : a8.IsWhole) (a9 : Memref sig .tc .vmem S1x3 .f32) (h9 : a9.IsWhole) (a10 : Memref sig .tc .vmem S1x1 .f32) (h10 : a10.IsWhole) (a11 : Memref sig .tc .vmem S1x1 .f32) (h11 : a11.IsWhole) (hc : ¬cond0_0 i)
    (x0 x1 : Vec F S1x4096x32 .f32) (x2 : Vec F S1x32x3 .f32) (x3 x4 x5 : Vec F S1x1x32 .f32) (xo6 xo7 xo8 : Vec F S1x3 .f32) (xo9 xo10 : Vec F S1x1 .f32) :
    out0_B_10 c i a1 h1 a2 h2 a3 h3 a4 h4 a5 h5 a6 h6 a7 h7 a8 h8 a9 h9 a10 h10 a11 h11 hc x0 x1 x2 x3 x4 x5 xo6 xo7 xo8 xo9 xo10 = k0_pay1 (k0_pay17 (k0_pay9 x0) x4 x5) x2 x3 xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 xo6 xo7 xo8 xo9 xo10)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h8.read_unread, h9.read_unread, h10.read_unread, h11.read_unread,
    View.ld_unit_zero (S := S1x3) hz2, View.ld_unit_zero (S := S1x1) hz2,
    View.ld_unit_zero (S := S1x4096x32) hz3, View.ld_unit_zero (S := S1x32x3) hz3, View.ld_unit_zero (S := S1x1x32) hz3]

end Cert.KernelIdeal.Step

end
-- ==== Proof.Accum.lean ====
/-
  The five accumulators across the grid, and what the program returns from them.

  The grid has 64 steps, one per batch member.  Each step adds the member's contribution to the five running
  sums (the first step to the zeros it has just stored), the accumulators' blocks never move, and each is written
  back to its result array once, after the last step: so the five result arrays end holding the 64-fold iterate of
  the step function, and the four values the program returns are the normalising divisions and weighted sum the
  host computes from them.
-/
import proofs.«164508_j69492570849790_1_alg».proof.Proof.Step
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The five accumulators' contents. -/
abbrev Accs (F : FTy → Type) [FloatOps F] : Type :=
  Vec F S1x3 .f32 × Vec F S1x3 .f32 × Vec F S1x3 .f32 × Vec F S1x1 .f32 × Vec F S1x1 .f32

/-- One grid step: each accumulator with the member's contribution added. -/
def stepFn (x0 x1 : Vec F S1x4096x32 .f32) (x2 : Vec F S1x32x3 .f32) (x3 x4 x5 : Vec F S1x1x32 .f32) (a : Accs F) : Accs F :=
  (k0_pay11 x0 x1 a.1, k0_pay12 x0 x1 a.2.1, k0_pay15 (k0_pay13 a.2.2.1) (k0_pay14 x0 x1),
    k0_pay16 (k0_pay7 x0) (k0_pay8 x1) a.2.2.2.1, k0_pay1 (k0_pay17 (k0_pay9 x0) x4 x5) x2 x3 a.2.2.2.2)

/-- The zeros the first step stores. -/
def zeros : Accs F := (k0_pay2, k0_pay3, k0_pay4, k0_pay5, k0_pay6)

/-- The accumulators after step `n`: the step function iterated over the members' blocks. -/
def accAt (c : Dev nD) : (n : ℕ) → n < cfg0.N → Accs F
  | 0, h => stepFn (iblk m c 0 ⟨0, h⟩) (iblk m c 1 ⟨0, h⟩) (iblk m c 2 ⟨0, h⟩) (iblk m c 3 ⟨0, h⟩) (iblk m c 4 ⟨0, h⟩)
      (iblk m c 5 ⟨0, h⟩) zeros
  | n + 1, h => stepFn (iblk m c 0 ⟨n + 1, h⟩) (iblk m c 1 ⟨n + 1, h⟩) (iblk m c 2 ⟨n + 1, h⟩) (iblk m c 3 ⟨n + 1, h⟩)
      (iblk m c 4 ⟨n + 1, h⟩) (iblk m c 5 ⟨n + 1, h⟩) (accAt c n (Nat.lt_of_succ_lt h))

/-- What the staging buffers hold after step `n` is that iterate: by induction on the step. -/
theorem outsAt_eq (c : Dev nD) : ∀ (n : ℕ) (h : n < cfg0.N), outsAt0 m c n h = accAt m c n h
  | 0, h => by
    rw [outsAt0_A m c ⟨0, h⟩ rfl, Step.first_6, Step.first_7, Step.first_8, Step.first_9, Step.first_10]
    rfl
  | n + 1, h => by
    have hN : cfg0.N = 64 := N_0
    have hB : ¬(⟨n + 1, h⟩ : Fin cfg0.N).val % 64 = 0 := by dsimp only; omega
    rw [outsAt0_B m c ⟨n + 1, h⟩ hB, Step.later_6, Step.later_7, Step.later_8, Step.later_9, Step.later_10]
    show stepFn _ _ _ _ _ _ (outsAt0 m c n _) = stepFn _ _ _ _ _ _ (accAt m c n _)
    rw [outsAt_eq c n]

/-- The last grid step. -/
def tLast : Fin cfg0.N := ⟨63, by rw [show cfg0.N = 64 from N_0]; decide⟩

/-- The accumulators after the last step. -/
def finalAccs (c : Dev nD) : Accs F := accAt m c 63 (by rw [show cfg0.N = 64 from N_0]; decide)

/-- Result array 0: what its accumulator holds after the last step (its one block IS the array). -/
abbrev res6 (c : Dev nD) : Buf (Elt F) ((c : Thread nD τ).loc main_v1_0) := (finalAccs m c).1

/-- The one write-back of accumulator 0, after the last step, writes it. -/
theorem flushed6 (c : Dev nD) (t : Fin cfg0.N) (hf : (cfg0.win 6).flush t = true) :
    (dats m 0 c).flushed 6 t = ((cfg0.win 6).blk t).view.read (Elt F) (res6 m c) := by
  have hN : cfg0.N = 64 := N_0
  have h63 : t.val = 63 := by have := (flush0_6 t).mp hf; have := t.isLt; omega
  obtain rfl : t = tLast := Fin.ext h63
  show (cfg0.win 6).cut (grid0.coords tLast) ((dats m 0 c).after 6 tLast) = _
  rw [after0_6, outsAt_eq]
  have hz' : (fun a => win0_6.index tLast a * main_v1_0.ty.shape.size a) = fun _ => 0 := funext fun a => by fin_cases a <;> decide
  exact (Memref.read_access_unit_zero (Elt F) main_v1_0 hz' (fun a => by rw [congrFun hz' a]; simp) (res6 m c)).symm

/-- So result array 0 ends holding it. -/
theorem final6 (c : Dev nD) : (dats m 0 c).arrAt 6 cfg0.N = res6 m c :=
  (dats m 0 c).arrAt_eq_of_cover 6 (res6 m c) (flushed6 m c) fun i =>
    ⟨tLast, (flush0_6 tLast).mpr rfl, by
      show i ∈ ((View.whole main_v1_0).slice (win0_6.rect tLast)).set
      rw [View.set_slice_whole, Rect.mem_set_unit]
      intro a
      have h0 : (i 0 : Nat) < 1 := (i 0).isLt
      have h1 : (i 1 : Nat) < 3 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 3 from by decide +kernel]; omega⟩

/-- Result array 1: what its accumulator holds after the last step (its one block IS the array). -/
abbrev res7 (c : Dev nD) : Buf (Elt F) ((c : Thread nD τ).loc main_v1_1) := (finalAccs m c).2.1

/-- The one write-back of accumulator 1, after the last step, writes it. -/
theorem flushed7 (c : Dev nD) (t : Fin cfg0.N) (hf : (cfg0.win 7).flush t = true) :
    (dats m 0 c).flushed 7 t = ((cfg0.win 7).blk t).view.read (Elt F) (res7 m c) := by
  have hN : cfg0.N = 64 := N_0
  have h63 : t.val = 63 := by have := (flush0_7 t).mp hf; have := t.isLt; omega
  obtain rfl : t = tLast := Fin.ext h63
  show (cfg0.win 7).cut (grid0.coords tLast) ((dats m 0 c).after 7 tLast) = _
  rw [after0_7, outsAt_eq]
  have hz' : (fun a => win0_7.index tLast a * main_v1_1.ty.shape.size a) = fun _ => 0 := funext fun a => by fin_cases a <;> decide
  exact (Memref.read_access_unit_zero (Elt F) main_v1_1 hz' (fun a => by rw [congrFun hz' a]; simp) (res7 m c)).symm

/-- So result array 1 ends holding it. -/
theorem final7 (c : Dev nD) : (dats m 0 c).arrAt 7 cfg0.N = res7 m c :=
  (dats m 0 c).arrAt_eq_of_cover 7 (res7 m c) (flushed7 m c) fun i =>
    ⟨tLast, (flush0_7 tLast).mpr rfl, by
      show i ∈ ((View.whole main_v1_1).slice (win0_7.rect tLast)).set
      rw [View.set_slice_whole, Rect.mem_set_unit]
      intro a
      have h0 : (i 0 : Nat) < 1 := (i 0).isLt
      have h1 : (i 1 : Nat) < 3 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 3 from by decide +kernel]; omega⟩

/-- Result array 2: what its accumulator holds after the last step (its one block IS the array). -/
abbrev res8 (c : Dev nD) : Buf (Elt F) ((c : Thread nD τ).loc main_v1_2) := (finalAccs m c).2.2.1

/-- The one write-back of accumulator 2, after the last step, writes it. -/
theorem flushed8 (c : Dev nD) (t : Fin cfg0.N) (hf : (cfg0.win 8).flush t = true) :
    (dats m 0 c).flushed 8 t = ((cfg0.win 8).blk t).view.read (Elt F) (res8 m c) := by
  have hN : cfg0.N = 64 := N_0
  have h63 : t.val = 63 := by have := (flush0_8 t).mp hf; have := t.isLt; omega
  obtain rfl : t = tLast := Fin.ext h63
  show (cfg0.win 8).cut (grid0.coords tLast) ((dats m 0 c).after 8 tLast) = _
  rw [after0_8, outsAt_eq]
  have hz' : (fun a => win0_8.index tLast a * main_v1_2.ty.shape.size a) = fun _ => 0 := funext fun a => by fin_cases a <;> decide
  exact (Memref.read_access_unit_zero (Elt F) main_v1_2 hz' (fun a => by rw [congrFun hz' a]; simp) (res8 m c)).symm

/-- So result array 2 ends holding it. -/
theorem final8 (c : Dev nD) : (dats m 0 c).arrAt 8 cfg0.N = res8 m c :=
  (dats m 0 c).arrAt_eq_of_cover 8 (res8 m c) (flushed8 m c) fun i =>
    ⟨tLast, (flush0_8 tLast).mpr rfl, by
      show i ∈ ((View.whole main_v1_2).slice (win0_8.rect tLast)).set
      rw [View.set_slice_whole, Rect.mem_set_unit]
      intro a
      have h0 : (i 0 : Nat) < 1 := (i 0).isLt
      have h1 : (i 1 : Nat) < 3 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 3 from by decide +kernel]; omega⟩

/-- Result array 3: what its accumulator holds after the last step (its one block IS the array). -/
abbrev res9 (c : Dev nD) : Buf (Elt F) ((c : Thread nD τ).loc main_v1_3) := (finalAccs m c).2.2.2.1

/-- The one write-back of accumulator 3, after the last step, writes it. -/
theorem flushed9 (c : Dev nD) (t : Fin cfg0.N) (hf : (cfg0.win 9).flush t = true) :
    (dats m 0 c).flushed 9 t = ((cfg0.win 9).blk t).view.read (Elt F) (res9 m c) := by
  have hN : cfg0.N = 64 := N_0
  have h63 : t.val = 63 := by have := (flush0_9 t).mp hf; have := t.isLt; omega
  obtain rfl : t = tLast := Fin.ext h63
  show (cfg0.win 9).cut (grid0.coords tLast) ((dats m 0 c).after 9 tLast) = _
  rw [after0_9, outsAt_eq]
  have hz' : (fun a => win0_9.index tLast a * main_v1_3.ty.shape.size a) = fun _ => 0 := funext fun a => by fin_cases a <;> decide
  exact (Memref.read_access_unit_zero (Elt F) main_v1_3 hz' (fun a => by rw [congrFun hz' a]; simp) (res9 m c)).symm

/-- So result array 3 ends holding it. -/
theorem final9 (c : Dev nD) : (dats m 0 c).arrAt 9 cfg0.N = res9 m c :=
  (dats m 0 c).arrAt_eq_of_cover 9 (res9 m c) (flushed9 m c) fun i =>
    ⟨tLast, (flush0_9 tLast).mpr rfl, by
      show i ∈ ((View.whole main_v1_3).slice (win0_9.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_9.index tLast 0 * win0_9.size 0 ≤ (i 0 : Nat) ∧ (i 0 : Nat) < win0_9.index tLast 0 * win0_9.size 0 + win0_9.xsize (grid0.coords tLast) 0
                  rw [show win0_9.index tLast 0 * win0_9.size 0 = 0 from by decide +kernel, show win0_9.xsize (grid0.coords tLast) 0 = 1 from by decide +kernel]; omega
      | ⟨1, _⟩ => show win0_9.index tLast 1 * win0_9.size 1 ≤ (i 1 : Nat) ∧ (i 1 : Nat) < win0_9.index tLast 1 * win0_9.size 1 + win0_9.xsize (grid0.coords tLast) 1
                  rw [show win0_9.index tLast 1 * win0_9.size 1 = 0 from by decide +kernel, show win0_9.xsize (grid0.coords tLast) 1 = 1 from by decide +kernel]; omega⟩

/-- Result array 4: what its accumulator holds after the last step (its one block IS the array). -/
abbrev res10 (c : Dev nD) : Buf (Elt F) ((c : Thread nD τ).loc main_v1_4) := (finalAccs m c).2.2.2.2

/-- The one write-back of accumulator 4, after the last step, writes it. -/
theorem flushed10 (c : Dev nD) (t : Fin cfg0.N) (hf : (cfg0.win 10).flush t = true) :
    (dats m 0 c).flushed 10 t = ((cfg0.win 10).blk t).view.read (Elt F) (res10 m c) := by
  have hN : cfg0.N = 64 := N_0
  have h63 : t.val = 63 := by have := (flush0_10 t).mp hf; have := t.isLt; omega
  obtain rfl : t = tLast := Fin.ext h63
  show (cfg0.win 10).cut (grid0.coords tLast) ((dats m 0 c).after 10 tLast) = _
  rw [after0_10, outsAt_eq]
  have hz' : (fun a => win0_10.index tLast a * main_v1_4.ty.shape.size a) = fun _ => 0 := funext fun a => by fin_cases a <;> decide
  exact (Memref.read_access_unit_zero (Elt F) main_v1_4 hz' (fun a => by rw [congrFun hz' a]; simp) (res10 m c)).symm

/-- So result array 4 ends holding it. -/
theorem final10 (c : Dev nD) : (dats m 0 c).arrAt 10 cfg0.N = res10 m c :=
  (dats m 0 c).arrAt_eq_of_cover 10 (res10 m c) (flushed10 m c) fun i =>
    ⟨tLast, (flush0_10 tLast).mpr rfl, by
      show i ∈ ((View.whole main_v1_4).slice (win0_10.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 1 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 1 from by decide +kernel]; omega⟩

/-! ## After the region: the host's normalisation and weighted sum -/

/-- The host lines after the region find result array 0 at the accumulator's final contents. -/
theorem arr6 (c : Dev nD) : Pipeline.withArrays (cfgs 0).spec c (V0 m c) (fun w => (dats m 0 c).arrAt w (cfgs 0).N)
    (Proc.tc.devRef main_v1_0) = res6 m c :=
  (Pipeline.withArrays_arr spec0 launch0.win.arr_inj c _ _ 6).trans (final6 m c)
/-- The host lines after the region find result array 1 at the accumulator's final contents. -/
theorem arr7 (c : Dev nD) : Pipeline.withArrays (cfgs 0).spec c (V0 m c) (fun w => (dats m 0 c).arrAt w (cfgs 0).N)
    (Proc.tc.devRef main_v1_1) = res7 m c :=
  (Pipeline.withArrays_arr spec0 launch0.win.arr_inj c _ _ 7).trans (final7 m c)
/-- The host lines after the region find result array 2 at the accumulator's final contents. -/
theorem arr8 (c : Dev nD) : Pipeline.withArrays (cfgs 0).spec c (V0 m c) (fun w => (dats m 0 c).arrAt w (cfgs 0).N)
    (Proc.tc.devRef main_v1_2) = res8 m c :=
  (Pipeline.withArrays_arr spec0 launch0.win.arr_inj c _ _ 8).trans (final8 m c)
/-- The host lines after the region find result array 3 at the accumulator's final contents. -/
theorem arr9 (c : Dev nD) : Pipeline.withArrays (cfgs 0).spec c (V0 m c) (fun w => (dats m 0 c).arrAt w (cfgs 0).N)
    (Proc.tc.devRef main_v1_3) = res9 m c :=
  (Pipeline.withArrays_arr spec0 launch0.win.arr_inj c _ _ 9).trans (final9 m c)
/-- The host lines after the region find result array 4 at the accumulator's final contents. -/
theorem arr10 (c : Dev nD) : Pipeline.withArrays (cfgs 0).spec c (V0 m c) (fun w => (dats m 0 c).arrAt w (cfgs 0).N)
    (Proc.tc.devRef main_v1_4) = res10 m c :=
  (Pipeline.withArrays_arr spec0 launch0.win.arr_inj c _ _ 10).trans (final10 m c)

/-- A length-3 accumulator divided by a count and summed over its three entries. -/
def meanSum (A : Vec F S1x3 .f32) (count : BitVec 32) : FVec F S_ .f32 :=
  Host.reduceAdd (Host.divf A (broadcastInDim S1x3 ![] bcast_S_S1x3 (constant S_ .f32 count))) (constant S_ .f32 0x00000000#32)
    reducesTo_S1x3_S_d0_1 h_S_

/-- A one-entry accumulator divided by a count. -/
def meanOne (A : Vec F S1x1 .f32) (count : BitVec 32) : FVec F S_ .f32 :=
  Host.divf (shapeCast S_ A shapeCasts_S1x1_S_) (constant S_ .f32 count)

/-- The position loss: the mean squared position error plus ten times that of the last position. -/
def positionLoss (A6 A7 : Vec F S1x3 .f32) : FVec F S_ .f32 :=
  addf (meanSum A6 0x48800000#32) (mulf (constant S_ .f32 0x41200000#32) (meanSum A7 0x42800000#32))

/-- The total: 2 · position + ½ · velocity + other + 10 · obstacle. -/
def totalLoss (A6 A7 A8 : Vec F S1x3 .f32) (A9 A10 : Vec F S1x1 .f32) : FVec F S_ .f32 :=
  addf (addf (addf (mulf (constant S_ .f32 0x40000000#32) (positionLoss A6 A7))
      (mulf (constant S_ .f32 0x3F000000#32) (meanSum A8 0x487FF000#32))) (meanOne A9 0x4AE80000#32))
    (mulf (constant S_ .f32 0x41200000#32) (meanOne A10 0x48800000#32))

theorem tail_position (c : Dev nD) : Pipeline.afterTail₀ cfgs (dats m) 0 (V0 m) [hostOps1] c main_v9
    = positionLoss (res6 m c) (res7 m c) := by
  unfold Pipeline.afterTail₀
  show StableHlo.after hostOps1 _ (Proc.devRef .tc main_v9) = _
  after_results
  rw [arr6, arr7]
  rfl

theorem tail_velocity (c : Dev nD) : Pipeline.afterTail₀ cfgs (dats m) 0 (V0 m) [hostOps1] c main_v12
    = meanSum (res8 m c) 0x487FF000#32 := by
  unfold Pipeline.afterTail₀
  show StableHlo.after hostOps1 _ (Proc.devRef .tc main_v12) = _
  after_results
  rw [arr8]
  rfl

theorem tail_obstacle (c : Dev nD) : Pipeline.afterTail₀ cfgs (dats m) 0 (V0 m) [hostOps1] c main_v16
    = meanOne (res10 m c) 0x48800000#32 := by
  unfold Pipeline.afterTail₀
  show StableHlo.after hostOps1 _ (Proc.devRef .tc main_v16) = _
  after_results
  rw [arr10]
  rfl

set_option maxHeartbeats 8000000 in
theorem tail_total (c : Dev nD) : Pipeline.afterTail₀ cfgs (dats m) 0 (V0 m) [hostOps1] c main_v22
    = totalLoss (res6 m c) (res7 m c) (res8 m c) (res9 m c) (res10 m c) := by
  unfold Pipeline.afterTail₀
  show StableHlo.after hostOps1 _ (Proc.devRef .tc main_v22) = _
  after_results
  rw [arr6, arr7, arr8, arr9, arr10]
  rfl

/-- The run, read: the four returned values from the accumulators' final contents, the arguments unchanged. -/
theorem run : θ_run defs (onTc (τ := τ) (main (F := F))) ⟨m, fun _ => 0, ρ⟩ fun r => ∀ c : Dev nD,
      r.2.mem ((c : Thread nD τ).loc main_v22) = totalLoss (res6 m c) (res7 m c) (res8 m c) (res9 m c) (res10 m c)
      ∧ r.2.mem ((c : Thread nD τ).loc main_v9) = positionLoss (res6 m c) (res7 m c)
      ∧ r.2.mem ((c : Thread nD τ).loc main_v12) = meanSum (res8 m c) 0x487FF000#32
      ∧ r.2.mem ((c : Thread nD τ).loc main_v16) = meanOne (res10 m c) 0x48800000#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v22 (Pipeline.mem_restRefs_of main_v22 (by decide) (by decide))).trans (tail_total m c),
      ((h c).2 main_v9 (Pipeline.mem_restRefs_of main_v9 (by decide) (by decide))).trans (tail_position m c),
      ((h c).2 main_v12 (Pipeline.mem_restRefs_of main_v12 (by decide) (by decide))).trans (tail_velocity m c),
      ((h c).2 main_v16 (Pipeline.mem_restRefs_of main_v16 (by decide) (by decide))).trans (tail_obstacle m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Acc

end
-- ==== Proof.Spec.lean ====
/-
  The mathematics of the trajectory loss, stated once over plain index functions into the extended reals.

  One grid step of the kernel sees ONE batch member: a trajectory block `X` and its target `Y` (4096 rows of
  32 features; the position is features 1, 2, 3), the member's 32 obstacle centres and radii, and the shared
  normalisation rows.  The step adds five contributions to five running sums: the squared position error per
  coordinate, the squared error of the last position, the squared error of the finite differences along the
  rows, the squared error of the remaining 29 features, and the squared obstacle penalty
  `max(2.2 r − √max(‖p·σ + μ − c‖², 0), 0)` summed over rows and obstacles.  The totals are those contributions
  summed over the 64 batch members, from zero.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- One member's trajectory block, obstacle centres, and a row of 32 numbers (radii, mean, std). -/
abbrev Traj1 := (⟨3, ![1, 4096, 32]⟩ : Shape).Idx → EReal
abbrev Cen1 := (⟨3, ![1, 32, 3]⟩ : Shape).Idx → EReal
abbrev Row1 := (⟨3, ![1, 1, 32]⟩ : Shape).Idx → EReal
/-- The whole arrays. -/
abbrev TrajAll := (⟨3, ![64, 4096, 32]⟩ : Shape).Idx → EReal
abbrev CenAll := (⟨3, ![64, 32, 3]⟩ : Shape).Idx → EReal
abbrev RadAll := (⟨2, ![64, 32]⟩ : Shape).Idx → EReal

/-- Member `b` of each array, as the block a grid step sees. -/
def trajOf (P : TrajAll) (b : Fin 64) : Traj1 := fun y => P (ix3 b (y 1) (y 2))
def cenOf (C : CenAll) (b : Fin 64) : Cen1 := fun y => C (ix3 b (y 1) (y 2))
def radOf (R : RadAll) (b : Fin 64) : Row1 := fun y => R (ix2 b (y 2))

/-- The feature column of position coordinate `j` (columns 1, 2, 3), of the first feature, of the last 28. -/
def col (j : Fin 3) : Fin 32 := ⟨1 + j.val, by have := j.isLt; omega⟩
def firstCol (k : Fin 1) : Fin 32 := ⟨0 + k.val, by have := k.isLt; omega⟩
def restCol (k : Fin 28) : Fin 32 := ⟨4 + k.val, by have := k.isLt; omega⟩
/-- Row `s + 1`, row `s` (for the finite differences) and the last row. -/
def succRow (s : Fin 4095) : Fin 4096 := ⟨1 + s.val, by have := s.isLt; omega⟩
def thisRow (s : Fin 4095) : Fin 4096 := ⟨0 + s.val, by have := s.isLt; omega⟩
def lastRow : Fin 4096 := ⟨4095, by omega⟩

/-- The f32 zero every sum starts from, and the safety factor 2.2 as the f32 word both programs carry. -/
def zero : EReal := Ideal.ofBits .f32 0x00000000#32
def margin : EReal := Ideal.ofBits .f32 0x400CCCCD#32

def sq (a : EReal) : EReal := a * a

/-- Squared position error of coordinate `j`, summed over the rows. -/
def posTerm (X Y : Traj1) (j : Fin 3) : EReal :=
  ∑ s : Fin 4096, sq (X (ix3 0 s (col j)) - Y (ix3 0 s (col j)))

/-- Squared error of the last position, coordinate `j`. -/
def lastTerm (X Y : Traj1) (j : Fin 3) : EReal :=
  sq (X (ix3 0 lastRow (col j)) - Y (ix3 0 lastRow (col j)))

/-- Squared error of the row-to-row differences of coordinate `j`. -/
def velTerm (X Y : Traj1) (j : Fin 3) : EReal :=
  ∑ s : Fin 4095, sq ((X (ix3 0 (succRow s) (col j)) - X (ix3 0 (thisRow s) (col j)))
    - (Y (ix3 0 (succRow s) (col j)) - Y (ix3 0 (thisRow s) (col j))))

/-- Squared error of feature 0 plus that of features 4 … 31, each summed over the rows. -/
def otherTerm (X Y : Traj1) : EReal :=
  (∑ s : Fin 4096, ∑ k : Fin 1, sq (X (ix3 0 s (firstCol k)) - Y (ix3 0 s (firstCol k))))
  + (∑ s : Fin 4096, ∑ k : Fin 28, sq (X (ix3 0 s (restCol k)) - Y (ix3 0 s (restCol k))))

/-- The de-normalised position coordinate `d` of row `s`. -/
def denorm (X : Traj1) (Mn Sd : Row1) (s : Fin 4096) (d : Fin 3) : EReal :=
  X (ix3 0 s (col d)) * Sd (ix3 0 0 (col d)) + Mn (ix3 0 0 (col d))

/-- Squared distance of row `s`'s position to obstacle `k`. -/
def dist2 (X : Traj1) (Mn Sd : Row1) (C : Cen1) (s : Fin 4096) (k : Fin 32) : EReal :=
  ∑ d : Fin 3, sq (denorm X Mn Sd s d - C (ix3 0 k d))

/-- The penalty of a squared distance against a radius. -/
def penalty (d2 r : EReal) : EReal := max (margin * r - Ideal.sqrt (max d2 zero)) zero

/-- The obstacle contribution: squared penalties over obstacles, then over rows. -/
def obsTerm (X : Traj1) (Mn Sd : Row1) (C : Cen1) (Rd : Row1) : EReal :=
  ∑ s : Fin 4096, ∑ k : Fin 32, sq (penalty (dist2 X Mn Sd C s k) (Rd (ix3 0 0 k)))

/-- The five totals over the batch. -/
def posSum (P G : TrajAll) (j : Fin 3) : EReal := zero + ∑ b : Fin 64, posTerm (trajOf P b) (trajOf G b) j
def lastSum (P G : TrajAll) (j : Fin 3) : EReal := zero + ∑ b : Fin 64, lastTerm (trajOf P b) (trajOf G b) j
def velSum (P G : TrajAll) (j : Fin 3) : EReal := zero + ∑ b : Fin 64, velTerm (trajOf P b) (trajOf G b) j
def otherSum (P G : TrajAll) : EReal := zero + ∑ b : Fin 64, otherTerm (trajOf P b) (trajOf G b)
def obsSum (P : TrajAll) (C : CenAll) (R : RadAll) (Mn Sd : Row1) : EReal :=
  zero + ∑ b : Fin 64, obsTerm (trajOf P b) Mn Sd (cenOf C b) (radOf R b)

/-- Every entry is a real number. -/
def AllReal {s : Shape} (X : s.Idx → EReal) : Prop := ∀ i, ∃ r : ℝ, X i = (r : EReal)

end Cert.Loss

end
-- ==== Proof.PayPos.lean ====
/-
  Three of the step's store payloads read at an index, at the extended reals.

  The position columns of a block are features 1, 2, 3 of its 4096 rows.  The first payload adds to the running sum
  the squared position error of coordinate j summed over the rows; the second adds the squared error of the last
  row; the third adds the squared error of the row-to-row differences, rows s + 1 against s for s below 4095.
-/
import proofs.«164508_j69492570849790_1_alg».proof.Proof.Gen.KernelIdeal.Skeleton
import proofs.«164508_j69492570849790_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Idealize.ShloMosaic Idealize.ShloMosaic.ValueIdx Cert.KernelIdeal Cert.KernelIdeal.Gen Cert.Loss

/-- The position columns of the first block: entry (s, j) of the [4096, 3] slice is feature 1 + j of row s. -/
theorem pay9_apply (x : Vec Ideal S1x4096x32 .f32) (s : Fin 4096) (j : Fin 3) :
    k0_pay9 (F := Ideal) x (ix2 s j) = x (ix3 0 s (col j)) := by
  unfold k0_pay9 k0_pay7
  refine (slice2_axis1_eq 1 _ _ s j).trans ?_
  exact shapeCast_1ab_ab_apply x _ s _

/-- The same for the second block. -/
theorem pay10_apply (x : Vec Ideal S1x4096x32 .f32) (s : Fin 4096) (j : Fin 3) :
    k0_pay10 (F := Ideal) x (ix2 s j) = x (ix3 0 s (col j)) := by
  unfold k0_pay10 k0_pay8
  refine (slice2_axis1_eq 1 _ _ s j).trans ?_
  exact shapeCast_1ab_ab_apply x _ s _

/-- Summing a [4096, 3] array over its rows: the index inserted on the row axis at column j is (k, j). -/
theorem lift_rows (h : S4096x3.Reduces [0] S3) (j : Fin 3) (k : Fin 4096) :
    h.lift (ix1 j) k = ix2 k j := by
  funext a; match a with | ⟨0, _⟩ => rfl | ⟨1, _⟩ => rfl

/-- The same for a [4095, 3] array. -/
theorem lift_rows' (h : S4095x3.Reduces [0] S3) (j : Fin 3) (k : Fin 4095) :
    h.lift (ix1 j) k = ix2 k j := by
  funext a; match a with | ⟨0, _⟩ => rfl | ⟨1, _⟩ => rfl

theorem pay_pos (x0 x1 : Vec Ideal S1x4096x32 .f32) (acc : Vec Ideal S1x3 .f32) (j : Fin 3) :
    k0_pay11 (F := Ideal) x0 x1 acc (ix2 0 j) = acc (ix2 0 j) + posTerm x0 x1 j := by
  unfold k0_pay11
  refine (addf_apply _ _ _).trans ?_
  rw [shapeCast_self]
  congr 1
  refine (shapeCast_a_1a_apply _ _ 0 j).trans ?_
  refine (Ideal.multiReduction_add_single _ _ _ _ _ _).trans ?_
  unfold posTerm
  refine Finset.sum_congr rfl fun (k : Fin 4096) _ => ?_
  refine (congrArg _ (lift_rows _ j k)).trans ?_
  show (k0_pay9 (F := Ideal) x0 (ix2 k j) - k0_pay10 (F := Ideal) x1 (ix2 k j))
      * (k0_pay9 (F := Ideal) x0 (ix2 k j) - k0_pay10 (F := Ideal) x1 (ix2 k j)) = _
  rw [pay9_apply, pay10_apply]
  rfl

/-- Row 4095 of a [4096, 3] array, as the one-row slice reads it. -/
theorem rows_last (v : FVec Ideal S4096x3 .f32) (h : S4096x3.Slices ![4095, 0] S1x3) (j : Fin 3) :
    extractStridedSlice S1x3 ![4095, 0] v h (ix2 0 j) = v (ix2 lastRow j) :=
  slice2_axis0_apply 4095 v h 0 j lastRow rfl

/-- Rows 1 … 4095 of a [4096, 3] array: entry (s, j) of the slice is row s + 1. -/
theorem rows_succ (v : FVec Ideal S4096x3 .f32) (h : S4096x3.Slices ![1, 0] S4095x3) (s : Fin 4095) (j : Fin 3) :
    extractStridedSlice S4095x3 ![1, 0] v h (ix2 s j) = v (ix2 (succRow s) j) :=
  slice2_axis0_apply 1 v h s j (succRow s) rfl

/-- Rows 0 … 4094 of a [4096, 3] array: entry (s, j) of the slice is row s. -/
theorem rows_this (v : FVec Ideal S4096x3 .f32) (h : S4096x3.Slices ![0, 0] S4095x3) (s : Fin 4095) (j : Fin 3) :
    extractStridedSlice S4095x3 ![0, 0] v h (ix2 s j) = v (ix2 (thisRow s) j) :=
  slice2_axis0_apply 0 v h s j (thisRow s) rfl

theorem pay_last (x0 x1 : Vec Ideal S1x4096x32 .f32) (acc : Vec Ideal S1x3 .f32) (j : Fin 3) :
    k0_pay12 (F := Ideal) x0 x1 acc (ix2 0 j) = acc (ix2 0 j) + lastTerm x0 x1 j := by
  unfold k0_pay12
  refine (addf_apply _ _ _).trans ?_
  rw [shapeCast_self]
  congr 1
  show (extractStridedSlice S1x3 ![4095, 0] (k0_pay9 (F := Ideal) x0) _ (ix2 0 j)
        - extractStridedSlice S1x3 ![4095, 0] (k0_pay10 (F := Ideal) x1) _ (ix2 0 j))
      * (extractStridedSlice S1x3 ![4095, 0] (k0_pay9 (F := Ideal) x0) _ (ix2 0 j)
        - extractStridedSlice S1x3 ![4095, 0] (k0_pay10 (F := Ideal) x1) _ (ix2 0 j)) = _
  rw [rows_last, rows_last, pay9_apply, pay10_apply]
  rfl

theorem pay_vel (x0 x1 : Vec Ideal S1x4096x32 .f32) (acc : Vec Ideal S1x3 .f32) (j : Fin 3) :
    k0_pay15 (F := Ideal) (k0_pay13 acc) (k0_pay14 x0 x1) (ix2 0 j) = acc (ix2 0 j) + velTerm x0 x1 j := by
  unfold k0_pay15 k0_pay13 k0_pay14
  refine (addf_apply _ _ _).trans ?_
  rw [shapeCast_self]
  congr 1
  refine (shapeCast_a_1a_apply _ _ 0 j).trans ?_
  refine (Ideal.multiReduction_add_single _ _ _ _ _ _).trans ?_
  unfold velTerm
  refine Finset.sum_congr rfl fun (k : Fin 4095) _ => ?_
  refine (congrArg _ (lift_rows' _ j k)).trans ?_
  show ((extractStridedSlice S4095x3 ![1, 0] (k0_pay9 (F := Ideal) x0) _ (ix2 k j)
          - extractStridedSlice S4095x3 ![0, 0] (k0_pay9 (F := Ideal) x0) _ (ix2 k j))
        - (extractStridedSlice S4095x3 ![1, 0] (k0_pay10 (F := Ideal) x1) _ (ix2 k j)
          - extractStridedSlice S4095x3 ![0, 0] (k0_pay10 (F := Ideal) x1) _ (ix2 k j)))
      * ((extractStridedSlice S4095x3 ![1, 0] (k0_pay9 (F := Ideal) x0) _ (ix2 k j)
          - extractStridedSlice S4095x3 ![0, 0] (k0_pay9 (F := Ideal) x0) _ (ix2 k j))
        - (extractStridedSlice S4095x3 ![1, 0] (k0_pay10 (F := Ideal) x1) _ (ix2 k j)
          - extractStridedSlice S4095x3 ![0, 0] (k0_pay10 (F := Ideal) x1) _ (ix2 k j))) = _
  rw [rows_succ, rows_succ, rows_this, rows_this, pay9_apply, pay9_apply, pay10_apply, pay10_apply]
  rfl

end Cert.KernelIdeal.Pay

end
-- ==== Proof.PayObs.lean ====
/-
  Two of the kernel body's running sums, read at their one index over the extended reals.

  The "other features" payload adds to the running sum the squared error of feature 0 and of features 4 … 31, each
  summed over the lanes of a row and then over the 4096 rows.  The "obstacle" payload adds the squared penalties
  `max(m r − √max(‖p·σ + μ − c‖², 0), 0)²` (`m` the specification's safety factor `margin`, `r` the radius), summed over the 32 obstacles of a row and then over the rows, where the
  position `p` is columns 1, 2, 3 of the trajectory block and `μ`, `σ` are the same columns of the two normalisation rows.
  Each step below reads one layout operation at an index given by coordinates; the arithmetic in between holds by
  definition of the operations on extended reals.
-/
import proofs.«164508_j69492570849790_1_alg».proof.Proof.Gen.KernelIdeal.Skeleton
import proofs.«164508_j69492570849790_1_alg».proof.Proof.Spec
import Idealize.ShloMosaic.PureOps.Ideal.Laws
import Idealize.ShloMosaic.Lib.ValueIdx
import Idealize.ShloMosaic.Lib.ValueLayout
import Idealize.ShloMosaic.Lib.Pipeline.Value
set_option maxRecDepth 16384
noncomputable section
namespace Cert.KernelIdeal.Pay
open Idealize.ShloMosaic Idealize.ShloMosaic.ValueIdx Cert.KernelIdeal Cert.KernelIdeal.Gen Cert.Loss

namespace Obs

theorem pay7_apply (x : Vec Ideal S1x4096x32 .f32) (s : Fin 4096) (d : Fin 32) :
    k0_pay7 (F := Ideal) x (ix2 s d) = x (ix3 0 s d) :=
  shapeCast_1ab_ab_apply x _ s d

theorem pay8_apply (x : Vec Ideal S1x4096x32 .f32) (s : Fin 4096) (d : Fin 32) :
    k0_pay8 (F := Ideal) x (ix2 s d) = x (ix3 0 s d) :=
  shapeCast_1ab_ab_apply x _ s d

/-- The sum of one row's lanes. -/
theorem rowSum {n : Nat} (v : FVec Ideal ⟨2, ![4096, n]⟩ .f32) (h : (⟨2, ![4096, n]⟩ : Shape).Reduces [1] S4096) (hφ) (hacc)
    (k : Fin 4096) :
    multiReduction (F := Ideal) .add [1] S4096 v 0x00000000#32 h hφ hacc (ix1 k) = ∑ m : Fin n, v (ix2 k m) := by
  rw [Ideal.multiReduction_add_single]
  refine Finset.sum_congr rfl fun m _ => congrArg v ?_
  funext a
  match a with
  | ⟨0, _⟩ => rfl
  | ⟨1, _⟩ => rfl

/-- The total of a column of 4096 numbers as the kernel takes it: laid out as one row, summed along the row, and the one
    result read out. -/
theorem total (w : FVec Ideal S4096 .f32) (h1 : S4096.ShapeCasts S1x4096) (h2 : S1x4096.Reduces [1] S1) (hφ) (hacc)
    (h3 : S1.ShapeCasts S1x1) (h4 : ∀ a, (![0, 0] : Fin 2 → Nat) a < S1x1.size a) :
    extractAt ![0, 0] (shapeCast S1x1 (multiReduction (F := Ideal) .add [1] S1 (shapeCast S1x4096 w h1) 0x00000000#32 h2 hφ hacc) h3) h4
      = ∑ k : Fin 4096, w (ix1 k) := by
  show shapeCast S1x1 (multiReduction (F := Ideal) .add [1] S1 (shapeCast S1x4096 w h1) 0x00000000#32 h2 hφ hacc) h3 (ix2 0 0) = _
  rw [shapeCast_a_1a_apply, Ideal.multiReduction_add_single]
  refine Finset.sum_congr rfl fun k _ => ?_
  refine Eq.trans (congrArg _ ?_) (shapeCast_a_1a_apply w h1 0 k)
  funext a
  match a with
  | ⟨0, _⟩ => rfl
  | ⟨1, _⟩ => rfl

/-- The first column and the last 28 columns of a block of rows. -/
theorem firstCol_apply (v : FVec Ideal S4096x32 .f32) (h : S4096x32.Slices ![0, 0] S4096x1) (s : Fin 4096) (k : Fin 1) :
    extractStridedSlice S4096x1 ![0, 0] v h (ix2 s k) = v (ix2 s (firstCol k)) :=
  slice2_axis1_apply 0 v h s k (firstCol k) rfl

theorem restCol_apply (v : FVec Ideal S4096x32 .f32) (h : S4096x32.Slices ![0, 4] S4096x28) (s : Fin 4096) (k : Fin 28) :
    extractStridedSlice S4096x28 ![0, 4] v h (ix2 s k) = v (ix2 s (restCol k)) :=
  slice2_axis1_apply 4 v h s k (restCol k) rfl

variable {α : Type}

/-- A [1, 1, a] row viewed as a vector of length a. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An [a, b] matrix viewed as [a, 1, b]. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- One [a, 1, c] slab copied along the middle axis. -/
theorem broadcastTo_a1c_abc_apply {a b c : ℕ} (hc : c ≠ 1) (ha : a ≠ 1) (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ => exact (if_neg ha).symm
  | ⟨1, _⟩ => rfl
  | ⟨2, _⟩ => exact (if_neg hc).symm

/-- One [1, b, c] slab copied along the leading axis. -/
theorem broadcastTo_1bc_abc_apply {a b c : ℕ} (hb : b ≠ 1) (hc : c ≠ 1) (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ => exact (if_neg hb).symm
  | ⟨2, _⟩ => exact (if_neg hc).symm

/-- The sum over the last axis of a rank-3 block. -/
theorem laneSum3 (v : FVec Ideal S4096x32x3 .f32) (h : S4096x32x3.Reduces [2] S4096x32) (hφ) (hacc) (s : Fin 4096) (k : Fin 32) :
    multiReduction (F := Ideal) .add [2] S4096x32 v 0x00000000#32 h hφ hacc (ix2 s k) = ∑ d : Fin 3, v (ix3 s k d) := by
  rw [Ideal.multiReduction_add_single]
  refine Finset.sum_congr rfl fun d _ => congrArg v ?_
  funext a
  match a with
  | ⟨0, _⟩ => rfl
  | ⟨1, _⟩ => rfl
  | ⟨2, _⟩ => rfl

/-- The three position columns of a trajectory block. -/
theorem pay9_apply (x : Vec Ideal S1x4096x32 .f32) (s : Fin 4096) (d : Fin 3) :
    k0_pay9 (F := Ideal) x (ix2 s d) = x (ix3 0 s (col d)) :=
  by
  unfold k0_pay9
  exact (slice2_axis1_apply 1 (k0_pay7 (F := Ideal) x) slices_S4096x32_o0_1_S4096x3 s d (col d) rfl).trans
    (pay7_apply x s (col d))

/-- Position columns 1, 2, 3 of a normalisation row, copied down the 4096 rows. -/
theorem rowCols_apply (r : Vec Ideal S1x1x32 .f32) (h1 : S1x1x32.Slices ![0, 0, 1] S1x1x3) (h2 : S1x1x3.ShapeCasts S3)
    (h3 : S3.ShapeCasts S1x3) (h4 : S1x3.Broadcasts S4096x3) (s : Fin 4096) (d : Fin 3) :
    broadcastTo S4096x3 (shapeCast S1x3 (shapeCast S3 (extractStridedSlice S1x1x3 ![0, 0, 1] r h1) h2) h3) h4 (ix2 s d)
      = r (ix3 0 0 (col d)) := by
  rw [broadcastTo_1b_ab_apply, shapeCast_a_1a_apply, shapeCast_11a_a_apply]
  exact slice3_axis2_apply 1 r h1 0 0 d (col d) rfl

/-- The de-normalised positions: each position column times the std row's entry plus the mean row's. -/
theorem pay17_apply (x0 : Vec Ideal S1x4096x32 .f32) (x4 x5 : Vec Ideal S1x1x32 .f32) (s : Fin 4096) (d : Fin 3) :
    k0_pay17 (F := Ideal) (k0_pay9 x0) x4 x5 (ix2 s d) = denorm x0 x4 x5 s d := by
  unfold k0_pay17
  refine congrArg₂ (· + ·) (congrArg₂ (· * ·) (pay9_apply x0 s d) ?_) ?_
  · exact rowCols_apply x5 _ _ _ _ s d
  · exact rowCols_apply x4 _ _ _ _ s d

/-- The radius row as the kernel lays it out: the [1, 1, 32] row viewed as [1, 32]. -/
theorem radRow_apply (r : Vec Ideal S1x1x32 .f32) (h1 : S1x1x32.ShapeCasts S1x1x32) (h2 : S1x1x32.ShapeCasts S32)
    (h3 : S32.ShapeCasts S1x32) (k : Fin 32) :
    shapeCast S1x32 (shapeCast S32 (shapeCast S1x1x32 r h1) h2) h3 (ix2 0 k) = r (ix3 0 0 k) := by
  rw [shapeCast_a_1a_apply, shapeCast_11a_a_apply, shapeCast_self]

/-- The centres, one [32, 3] table shared by all 4096 rows. -/
theorem centre_apply (c : Vec Ideal S1x32x3 .f32) (h1 : S1x32x3.ShapeCasts S32x3) (h2 : S32x3.ShapeCasts S1x32x3)
    (h3 : S1x32x3.Broadcasts S4096x32x3) (s : Fin 4096) (k : Fin 32) (d : Fin 3) :
    broadcastTo S4096x32x3 (shapeCast S1x32x3 (shapeCast S32x3 c h1) h2) h3 (ix3 s k d) = c (ix3 0 k d) := by
  rw [broadcastTo_1bc_abc_apply (by decide) (by decide), shapeCast_ab_1ab_apply, shapeCast_1ab_ab_apply]

/-- The positions, each row's three coordinates shared by all 32 obstacles. -/
theorem posAll_apply (p : FVec Ideal S4096x3 .f32) (h1 : S4096x3.ShapeCasts S4096x1x3)
    (h2 : S4096x1x3.Broadcasts S4096x32x3) (s : Fin 4096) (k : Fin 32) (d : Fin 3) :
    broadcastTo S4096x32x3 (shapeCast S4096x1x3 p h1) h2 (ix3 s k d) = p (ix2 s d) := by
  rw [broadcastTo_a1c_abc_apply (by decide) (by decide), shapeCast_ab_a1b_apply]

end Obs

open Obs

/-- The "other features" payload: the running sum plus the squared error of feature 0 and of features 4 … 31. -/
theorem pay_other (x0 x1 : Vec Ideal S1x4096x32 .f32) (acc : Vec Ideal S1x1 .f32) :
    k0_pay16 (F := Ideal) (k0_pay7 x0) (k0_pay8 x1) acc (ix2 0 0) = acc (ix2 0 0) + otherTerm x0 x1 := by
  unfold k0_pay16
  refine congrArg₂ (· + ·) ?_ (congrArg₂ (· + ·) ?_ ?_)
  · exact congrFun (shapeCast_self acc _) _
  · refine (total _ _ _ _ _ _ _).trans ?_
    refine Finset.sum_congr rfl fun s _ => ?_
    refine (rowSum _ _ _ _ s).trans ?_
    refine Finset.sum_congr rfl fun k _ => ?_
    show Loss.sq (extractStridedSlice S4096x1 ![0, 0] (k0_pay7 (F := Ideal) x0) _ (ix2 s k)
      - extractStridedSlice S4096x1 ![0, 0] (k0_pay8 (F := Ideal) x1) _ (ix2 s k)) = _
    rw [firstCol_apply, firstCol_apply, pay7_apply, pay8_apply]
  · refine (total _ _ _ _ _ _ _).trans ?_
    refine Finset.sum_congr rfl fun s _ => ?_
    refine (rowSum _ _ _ _ s).trans ?_
    refine Finset.sum_congr rfl fun k _ => ?_
    show Loss.sq (extractStridedSlice S4096x28 ![0, 4] (k0_pay7 (F := Ideal) x0) _ (ix2 s k)
      - extractStridedSlice S4096x28 ![0, 4] (k0_pay8 (F := Ideal) x1) _ (ix2 s k)) = _
    rw [restCol_apply, restCol_apply, pay7_apply, pay8_apply]

/-- The "obstacle" payload: the running sum plus the squared obstacle penalties over obstacles and rows. -/
theorem pay_obs (x0 : Vec Ideal S1x4096x32 .f32) (x2 : Vec Ideal S1x32x3 .f32) (x3 x4 x5 : Vec Ideal S1x1x32 .f32)
    (acc : Vec Ideal S1x1 .f32) :
    k0_pay1 (F := Ideal) (k0_pay17 (k0_pay9 x0) x4 x5) x2 x3 acc (ix2 0 0)
      = acc (ix2 0 0) + obsTerm x0 x4 x5 x2 x3 := by
  unfold k0_pay1
  refine congrArg₂ (· + ·) ?_ ?_
  · exact congrFun (shapeCast_self acc _) _
  · refine (total _ _ _ _ _ _ _).trans ?_
    refine Finset.sum_congr rfl fun s _ => ?_
    refine (rowSum _ _ _ _ s).trans ?_
    refine Finset.sum_congr rfl fun k _ => ?_
    refine congrArg Loss.sq (congrArg (max · Loss.zero) (congrArg₂ (· - ·) ?_
      (congrArg (fun t => Ideal.sqrt (max t Loss.zero)) ?_)))
    · refine (broadcastTo_1b_ab_apply _ _ s k).trans ?_
      exact congrArg (margin * ·) (radRow_apply x3 _ _ _ k)
    · refine (laneSum3 _ _ _ _ s k).trans ?_
      refine Finset.sum_congr rfl fun d _ => ?_
      exact congrArg Loss.sq (congrArg₂ (· - ·)
        ((posAll_apply _ _ _ s k d).trans (pay17_apply x0 x4 x5 s d)) (centre_apply x2 _ _ _ s k d))

end Cert.KernelIdeal.Pay

end
-- ==== Proof.Totals.lean ====
/-
  The accumulators' final contents in closed form, at the extended reals.

  After step n each accumulator holds zero plus the sum of the contributions of members 0 … n: the first step adds
  member 0's contribution to the stored zero, every later step adds its member's to the running value.  A step's
  blocks are the members of the argument arrays: block t of a trajectory array is its member t, of the centres
  likewise, of the radii (reshaped to [64, 1, 32] before the region) row t, and the mean and std rows are the
  whole arrays at every step.  So the five result arrays end holding the specification's five totals.
-/
import proofs.«164508_j69492570849790_1_alg».proof.Proof.Accum
import proofs.«164508_j69492570849790_1_alg».proof.Proof.PayPos
import proofs.«164508_j69492570849790_1_alg».proof.Proof.PayObs
import proofs.«164508_j69492570849790_1_alg».proof.Proof.Spec

set_option maxRecDepth 16384

noncomputable section

open Idealize.ShloMosaic Idealize.ShloMosaic.TcCoe Idealize.SL.Sem
open Idealize.ShloMosaic.Pipeline (Dat)

namespace Cert.KernelIdeal.Totals

open Cert.KernelIdeal Cert.KernelIdeal.Gen Cert.KernelIdeal.Acc Cert.KernelIdeal.Pay Cert.Loss
open Idealize.ShloMosaic.ValueIdx

variable (m : (ℓ : Loc nD τ sig) → Buf (Elt Ideal) ℓ)

/-! ## Running sums -/

/-- Adding member n + 1's term to zero plus the terms of members 0 … n. -/
theorem sum_step (z : EReal) (T : ℕ → EReal) (n : ℕ) :
    (z + ∑ b ∈ Finset.range (n + 1), T b) + T (n + 1) = z + ∑ b ∈ Finset.range (n + 1 + 1), T b := by
  rw [Finset.sum_range_succ T (n + 1), add_assoc]

/-- Adding member 0's term to zero. -/
theorem sum_first (z : EReal) (T : ℕ → EReal) : z + T 0 = z + ∑ b ∈ Finset.range (0 + 1), T b := by
  rw [Finset.sum_range_one]

/-- Every index of a [1, n] block is (0, j). -/
theorem idx_1n {n : ℕ} (y : (⟨2, ![1, n]⟩ : Shape).Idx) : ∃ j : Fin n, y = ix2 (0 : Fin 1) j :=
  ⟨(idxEquiv2 y).2, by
    obtain ⟨a, j, rfl⟩ : ∃ (a : Fin 1) (j : Fin n), y = ix2 a j := ⟨(idxEquiv2 y).1, (idxEquiv2 y).2, eq_ix2 y⟩
    obtain rfl : a = 0 := Subsingleton.elim _ _
    rfl⟩

/-! ## The members' terms, by step number -/

/-- Member b's five contributions (zero past the grid). -/
def posT (c : Dev nD) (j : Fin 3) (b : ℕ) : EReal :=
  if h : b < cfg0.N then posTerm (iblk m c 0 ⟨b, h⟩) (iblk m c 1 ⟨b, h⟩) j else 0
def lastT (c : Dev nD) (j : Fin 3) (b : ℕ) : EReal :=
  if h : b < cfg0.N then lastTerm (iblk m c 0 ⟨b, h⟩) (iblk m c 1 ⟨b, h⟩) j else 0
def velT (c : Dev nD) (j : Fin 3) (b : ℕ) : EReal :=
  if h : b < cfg0.N then velTerm (iblk m c 0 ⟨b, h⟩) (iblk m c 1 ⟨b, h⟩) j else 0
def otherT (c : Dev nD) (b : ℕ) : EReal :=
  if h : b < cfg0.N then otherTerm (iblk m c 0 ⟨b, h⟩) (iblk m c 1 ⟨b, h⟩) else 0
def obsT (c : Dev nD) (b : ℕ) : EReal :=
  if h : b < cfg0.N then obsTerm (iblk m c 0 ⟨b, h⟩) (iblk m c 4 ⟨b, h⟩) (iblk m c 5 ⟨b, h⟩) (iblk m c 2 ⟨b, h⟩) (iblk m c 3 ⟨b, h⟩) else 0

/-- The accumulators after step n, in closed form. -/
def sums (c : Dev nD) (n : ℕ) : Accs Ideal :=
  (fun y => zero + ∑ b ∈ Finset.range (n + 1), posT m c (idxEquiv2 y).2 b,
   fun y => zero + ∑ b ∈ Finset.range (n + 1), lastT m c (idxEquiv2 y).2 b,
   fun y => zero + ∑ b ∈ Finset.range (n + 1), velT m c (idxEquiv2 y).2 b,
   fun _ => zero + ∑ b ∈ Finset.range (n + 1), otherT m c b,
   fun _ => zero + ∑ b ∈ Finset.range (n + 1), obsT m c b)

/-- One step on accumulators in closed form. -/
theorem step_sums (c : Dev nD) (n : ℕ) (h : n < cfg0.N) (a : Accs Ideal)
    (h1 : ∀ j : Fin 3, a.1 (ix2 0 j) + posT m c j n = (sums m c n).1 (ix2 0 j))
    (h2 : ∀ j : Fin 3, a.2.1 (ix2 0 j) + lastT m c j n = (sums m c n).2.1 (ix2 0 j))
    (h3 : ∀ j : Fin 3, a.2.2.1 (ix2 0 j) + velT m c j n = (sums m c n).2.2.1 (ix2 0 j))
    (h4 : a.2.2.2.1 (ix2 0 0) + otherT m c n = (sums m c n).2.2.2.1 (ix2 0 0))
    (h5 : a.2.2.2.2 (ix2 0 0) + obsT m c n = (sums m c n).2.2.2.2 (ix2 0 0)) :
    stepFn (iblk m c 0 ⟨n, h⟩) (iblk m c 1 ⟨n, h⟩) (iblk m c 2 ⟨n, h⟩) (iblk m c 3 ⟨n, h⟩) (iblk m c 4 ⟨n, h⟩)
      (iblk m c 5 ⟨n, h⟩) a = sums m c n := by
  unfold stepFn
  refine Prod.ext ?_ (Prod.ext ?_ (Prod.ext ?_ (Prod.ext ?_ ?_)))
  · funext y; obtain ⟨j, rfl⟩ := idx_1n y
    refine (pay_pos _ _ _ _).trans ?_
    rw [← h1 j]; unfold posT; rw [dif_pos h]
  · funext y; obtain ⟨j, rfl⟩ := idx_1n y
    refine (pay_last _ _ _ _).trans ?_
    rw [← h2 j]; unfold lastT; rw [dif_pos h]
  · funext y; obtain ⟨j, rfl⟩ := idx_1n y
    refine (pay_vel _ _ _ _).trans ?_
    rw [← h3 j]; unfold velT; rw [dif_pos h]
  · funext y; obtain ⟨j, rfl⟩ := idx_1n y; obtain rfl : j = 0 := Subsingleton.elim _ _
    refine (pay_other _ _ _).trans ?_
    rw [← h4]; unfold otherT; rw [dif_pos h]
  · funext y; obtain ⟨j, rfl⟩ := idx_1n y; obtain rfl : j = 0 := Subsingleton.elim _ _
    refine (pay_obs _ _ _ _ _ _).trans ?_
    rw [← h5]; unfold obsT; rw [dif_pos h]

/-- The accumulators after step n are the closed form: by induction on the step. -/
theorem accAt_eq (c : Dev nD) : ∀ (n : ℕ) (h : n < cfg0.N), accAt m c n h = sums m c n
  | 0, h => by
    show stepFn _ _ _ _ _ _ zeros = _
    exact step_sums m c 0 h zeros (fun j => sum_first _ _) (fun j => sum_first _ _) (fun j => sum_first _ _)
      (sum_first _ _) (sum_first _ _)
  | n + 1, h => by
    show stepFn _ _ _ _ _ _ (accAt m c n _) = _
    rw [accAt_eq c n]
    exact step_sums m c (n + 1) h (sums m c n) (fun j => sum_step _ _ _) (fun j => sum_step _ _ _)
      (fun j => sum_step _ _ _) (sum_step _ _ _) (sum_step _ _ _)

end Cert.KernelIdeal.Totals

end
-- ==== Proof.Members.lean ====
/-
  A grid step's blocks are the members of the argument arrays.

  Step t fetches block (t, 0, 0) of each trajectory array and of the centres, block (t, 0, 0) of the radii reshaped
  to [64, 1, 32], and block (0, 0, 0) of the mean and std rows: entry y of such a block is the array's entry at
  member t (for the two rows: the array's own entry).
-/
import proofs.«164508_j69492570849790_1_alg».proof.Proof.Gen.KernelIdeal.Frame
import proofs.«164508_j69492570849790_1_alg».proof.Proof.Spec
import proofs.«164508_j69492570849790_1_alg».proof.Proof.PayObs
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Members

open Cert.KernelIdeal Cert.KernelIdeal.Gen Cert.Loss
open Idealize.ShloMosaic.ValueIdx

variable {F : FTy → Type} [FloatOps F]
variable (m : (ℓ : Loc nD τ sig) → Buf (Elt F) ℓ)

/-- The step number as a member number. -/
def member (t : Fin cfg0.N) : Fin 64 := ⟨t.val, lt_of_lt_of_eq t.isLt N_0⟩

/-- The block indices, decided once over the grid. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- Block t of the first trajectory array is its member t. -/
theorem blk0 (c : Dev nD) (t : Fin cfg0.N) (y : S1x4096x32.Idx) :
    (iblk m c 0 t : Vec F S1x4096x32 .f32) y = m ((c : Thread nD τ).loc main_arg0) (ix3 (member t) (y 1) (y 2)) := by
  unfold iblk
  rw [View.read_apply]
  show V m c main_arg0 _ = m (c.tc.loc main_arg0) _
  refine (congrFun (V_main_arg0 m c) _).trans (congrArg _ (funext fun a => Fin.ext ?_))
  have h0 : (y 0).val < 1 := (y 0).isLt
  match a with
  | ⟨0, _⟩ => show win0_0.index t 0 * 1 + 1 * (y 0).val = t.val
              rw [(index0 t).1]; omega
  | ⟨1, _⟩ => show win0_0.index t 1 * 4096 + 1 * (y 1).val = (y 1).val
              rw [(index0 t).2.1]; omega
  | ⟨2, _⟩ => show win0_0.index t 2 * 32 + 1 * (y 2).val = (y 2).val
              rw [(index0 t).2.2]; omega

/-- Block t of the second trajectory array is its member t. -/
theorem blk1 (c : Dev nD) (t : Fin cfg0.N) (y : S1x4096x32.Idx) :
    (iblk m c 1 t : Vec F S1x4096x32 .f32) y = m ((c : Thread nD τ).loc main_arg1) (ix3 (member t) (y 1) (y 2)) := by
  unfold iblk
  rw [View.read_apply]
  show V m c main_arg1 _ = m (c.tc.loc main_arg1) _
  refine (congrFun (V_main_arg1 m c) _).trans (congrArg _ (funext fun a => Fin.ext ?_))
  have h0 : (y 0).val < 1 := (y 0).isLt
  match a with
  | ⟨0, _⟩ => show win0_1.index t 0 * 1 + 1 * (y 0).val = t.val
              rw [(index1 t).1]; omega
  | ⟨1, _⟩ => show win0_1.index t 1 * 4096 + 1 * (y 1).val = (y 1).val
              rw [(index1 t).2.1]; omega
  | ⟨2, _⟩ => show win0_1.index t 2 * 32 + 1 * (y 2).val = (y 2).val
              rw [(index1 t).2.2]; omega

/-- Block t of the centres is member t's centres. -/
theorem blk2 (c : Dev nD) (t : Fin cfg0.N) (y : S1x32x3.Idx) :
    (iblk m c 2 t : Vec F S1x32x3 .f32) y = m ((c : Thread nD τ).loc main_arg2) (ix3 (member t) (y 1) (y 2)) := by
  unfold iblk
  rw [View.read_apply]
  show V m c main_arg2 _ = m (c.tc.loc main_arg2) _
  refine (congrFun (V_main_arg2 m c) _).trans (congrArg _ (funext fun a => Fin.ext ?_))
  have h0 : (y 0).val < 1 := (y 0).isLt
  match a with
  | ⟨0, _⟩ => show win0_2.index t 0 * 1 + 1 * (y 0).val = t.val
              rw [(index2 t).1]; omega
  | ⟨1, _⟩ => show win0_2.index t 1 * 32 + 1 * (y 1).val = (y 1).val
              rw [(index2 t).2.1]; omega
  | ⟨2, _⟩ => show win0_2.index t 2 * 3 + 1 * (y 2).val = (y 2).val
              rw [(index2 t).2.2]; omega

/-- The mean row's one block is the row. -/
theorem blk4 (c : Dev nD) (t : Fin cfg0.N) (y : S1x1x32.Idx) :
    (iblk m c 4 t : Vec F S1x1x32 .f32) y = m ((c : Thread nD τ).loc main_arg4) (y) := by
  unfold iblk
  rw [View.read_apply]
  show V m c main_arg4 _ = m (c.tc.loc main_arg4) _
  refine (congrFun (V_main_arg4 m c) _).trans (congrArg _ (funext fun a => Fin.ext ?_))
  have h0 : (y 0).val < 1 := (y 0).isLt
  match a with
  | ⟨0, _⟩ => show win0_4.index t 0 * 1 + 1 * (y 0).val = (y 0).val
              rw [(index4 t).1]; omega
  | ⟨1, _⟩ => show win0_4.index t 1 * 1 + 1 * (y 1).val = (y 1).val
              rw [(index4 t).2.1]; omega
  | ⟨2, _⟩ => show win0_4.index t 2 * 32 + 1 * (y 2).val = (y 2).val
              rw [(index4 t).2.2]; omega

/-- The std row's one block is the row. -/
theorem blk5 (c : Dev nD) (t : Fin cfg0.N) (y : S1x1x32.Idx) :
    (iblk m c 5 t : Vec F S1x1x32 .f32) y = m ((c : Thread nD τ).loc main_arg5) (y) := by
  unfold iblk
  rw [View.read_apply]
  show V m c main_arg5 _ = m (c.tc.loc main_arg5) _
  refine (congrFun (V_main_arg5 m c) _).trans (congrArg _ (funext fun a => Fin.ext ?_))
  have h0 : (y 0).val < 1 := (y 0).isLt
  match a with
  | ⟨0, _⟩ => show win0_5.index t 0 * 1 + 1 * (y 0).val = (y 0).val
              rw [(index5 t).1]; omega
  | ⟨1, _⟩ => show win0_5.index t 1 * 1 + 1 * (y 1).val = (y 1).val
              rw [(index5 t).2.1]; omega
  | ⟨2, _⟩ => show win0_5.index t 2 * 32 + 1 * (y 2).val = (y 2).val
              rw [(index5 t).2.2]; omega

/-- The radii as the region finds them: reshaped to [64, 1, 32]. -/
theorem radii_reshaped (c : Dev nD) :
    (V m c main_v0 : S64x1x32.Idx → Elt F (.f32)) = shapeCast S64x1x32 (m ((c : Thread nD τ).loc main_arg3)) shapeCasts_S64x32_S64x1x32 := by
  show StableHlo.after hostOps0 (fun b => m (c, b)) (Proc.devRef .tc main_v0) = _
  after_results
  rfl

/-- Block t of the reshaped radii is member t's row of radii. -/
theorem blk3 (c : Dev nD) (t : Fin cfg0.N) (y : S1x1x32.Idx) :
    (iblk m c 3 t : Vec F S1x1x32 .f32) y = m ((c : Thread nD τ).loc main_arg3) (ix2 (member t) (y 2)) := by
  unfold iblk
  rw [View.read_apply]
  show V m c main_v0 _ = _
  refine (congrFun (radii_reshaped m c) _).trans ?_
  have h0 : (y 0).val < 1 := (y 0).isLt
  have h1 : (y 1).val < 1 := (y 1).isLt
  have e : ((cfg0.win 3).blk t).view.emb y = ix3 (member t) (0 : Fin 1) (y 2) := funext fun a => Fin.ext (by
    match a with
    | ⟨0, _⟩ => show win0_3.index t 0 * 1 + 1 * (y 0).val = t.val
                rw [(index3 t).1]; omega
    | ⟨1, _⟩ => show win0_3.index t 1 * 1 + 1 * (y 1).val = 0
                rw [(index3 t).2.1]; omega
    | ⟨2, _⟩ => show win0_3.index t 2 * 32 + 1 * (y 2).val = (y 2).val
                rw [(index3 t).2.2]; omega)
  rw [e]
  exact Cert.KernelIdeal.Pay.Obs.shapeCast_ab_a1b_apply _ _ _ _ _

end Cert.KernelIdeal.Members

end
-- ==== Proof.Kernel.lean ====
/-
  The kernel's five result arrays are the specification's five totals of the argument arrays.

  The accumulators end at zero plus the sum over the 64 steps of each step's contribution, and step b's blocks are
  member b of the arrays: so each result array holds, at its entries, the total over the batch.
-/
import proofs.«164508_j69492570849790_1_alg».proof.Proof.Totals
import proofs.«164508_j69492570849790_1_alg».proof.Proof.Members

set_option maxRecDepth 16384

noncomputable section

open Idealize.ShloMosaic Idealize.ShloMosaic.TcCoe Idealize.SL.Sem

namespace Cert.KernelIdeal.Closed

open Cert.KernelIdeal Cert.KernelIdeal.Gen Cert.KernelIdeal.Acc Cert.KernelIdeal.Totals Cert.KernelIdeal.Members Cert.Loss
open Idealize.ShloMosaic.ValueIdx

variable (m : (ℓ : Loc nD τ sig) → Buf (Elt Ideal) ℓ)

/-- Step b's blocks, as members of the arrays. -/
theorem traj0 (c : Dev nD) (b : Fin 64) (h : b.val < cfg0.N) :
    (iblk m c 0 ⟨b.val, h⟩ : Traj1) = trajOf (m ((c : Thread nD τ).loc main_arg0)) b :=
  funext fun y => blk0 m c ⟨b.val, h⟩ y
theorem traj1 (c : Dev nD) (b : Fin 64) (h : b.val < cfg0.N) :
    (iblk m c 1 ⟨b.val, h⟩ : Traj1) = trajOf (m ((c : Thread nD τ).loc main_arg1)) b :=
  funext fun y => blk1 m c ⟨b.val, h⟩ y
theorem cen2 (c : Dev nD) (b : Fin 64) (h : b.val < cfg0.N) :
    (iblk m c 2 ⟨b.val, h⟩ : Cen1) = cenOf (m ((c : Thread nD τ).loc main_arg2)) b :=
  funext fun y => blk2 m c ⟨b.val, h⟩ y
theorem rad3 (c : Dev nD) (b : Fin 64) (h : b.val < cfg0.N) :
    (iblk m c 3 ⟨b.val, h⟩ : Row1) = radOf (m ((c : Thread nD τ).loc main_arg3)) b :=
  funext fun y => blk3 m c ⟨b.val, h⟩ y
theorem mean4 (c : Dev nD) (t : Fin cfg0.N) : (iblk m c 4 t : Row1) = m ((c : Thread nD τ).loc main_arg4) :=
  funext fun y => blk4 m c t y
theorem std5 (c : Dev nD) (t : Fin cfg0.N) : (iblk m c 5 t : Row1) = m ((c : Thread nD τ).loc main_arg5) :=
  funext fun y => blk5 m c t y

/-- A sum over the first 64 step numbers is the sum over the 64 members. -/
theorem range_sum (T : ℕ → EReal) (f : Fin 64 → EReal) (hT : ∀ b : Fin 64, T b.val = f b) :
    ∑ b ∈ Finset.range 64, T b = ∑ b : Fin 64, f b := by
  rw [Finset.sum_range]; exact Finset.sum_congr rfl fun b _ => hT b

theorem h63 : 63 < cfg0.N := by rw [show cfg0.N = 64 from N_0]; decide

theorem res6_eq (c : Dev nD) (j : Fin 3) :
    res6 m c (ix2 (0 : Fin 1) j) = posSum (m ((c : Thread nD τ).loc main_arg0)) (m ((c : Thread nD τ).loc main_arg1)) j := by
  show (accAt m c 63 h63).1 (ix2 (0 : Fin 1) j) = _
  rw [accAt_eq m c 63]
  show zero + ∑ b ∈ Finset.range 64, posT m c j b = _
  unfold posSum
  refine congrArg (zero + ·) (range_sum _ _ fun b => ?_)
  have hb : b.val < cfg0.N := lt_of_lt_of_eq b.isLt N_0.symm
  unfold posT; rw [dif_pos hb, traj0 m c b hb, traj1 m c b hb]

theorem res7_eq (c : Dev nD) (j : Fin 3) :
    res7 m c (ix2 (0 : Fin 1) j) = lastSum (m ((c : Thread nD τ).loc main_arg0)) (m ((c : Thread nD τ).loc main_arg1)) j := by
  show (accAt m c 63 h63).2.1 (ix2 (0 : Fin 1) j) = _
  rw [accAt_eq m c 63]
  show zero + ∑ b ∈ Finset.range 64, lastT m c j b = _
  unfold lastSum
  refine congrArg (zero + ·) (range_sum _ _ fun b => ?_)
  have hb : b.val < cfg0.N := lt_of_lt_of_eq b.isLt N_0.symm
  unfold lastT; rw [dif_pos hb, traj0 m c b hb, traj1 m c b hb]

theorem res8_eq (c : Dev nD) (j : Fin 3) :
    res8 m c (ix2 (0 : Fin 1) j) = velSum (m ((c : Thread nD τ).loc main_arg0)) (m ((c : Thread nD τ).loc main_arg1)) j := by
  show (accAt m c 63 h63).2.2.1 (ix2 (0 : Fin 1) j) = _
  rw [accAt_eq m c 63]
  show zero + ∑ b ∈ Finset.range 64, velT m c j b = _
  unfold velSum
  refine congrArg (zero + ·) (range_sum _ _ fun b => ?_)
  have hb : b.val < cfg0.N := lt_of_lt_of_eq b.isLt N_0.symm
  unfold velT; rw [dif_pos hb, traj0 m c b hb, traj1 m c b hb]

theorem res9_eq (c : Dev nD) :
    res9 m c (ix2 (0 : Fin 1) (0 : Fin 1)) = otherSum (m ((c : Thread nD τ).loc main_arg0)) (m ((c : Thread nD τ).loc main_arg1)) := by
  show (accAt m c 63 h63).2.2.2.1 (ix2 (0 : Fin 1) (0 : Fin 1)) = _
  rw [accAt_eq m c 63]
  show zero + ∑ b ∈ Finset.range 64, otherT m c b = _
  unfold otherSum
  refine congrArg (zero + ·) (range_sum _ _ fun b => ?_)
  have hb : b.val < cfg0.N := lt_of_lt_of_eq b.isLt N_0.symm
  unfold otherT; rw [dif_pos hb, traj0 m c b hb, traj1 m c b hb]

theorem res10_eq (c : Dev nD) :
    res10 m c (ix2 (0 : Fin 1) (0 : Fin 1)) = obsSum (m ((c : Thread nD τ).loc main_arg0)) (m ((c : Thread nD τ).loc main_arg2))
      (m ((c : Thread nD τ).loc main_arg3)) (m ((c : Thread nD τ).loc main_arg4)) (m ((c : Thread nD τ).loc main_arg5)) := by
  show (accAt m c 63 h63).2.2.2.2 (ix2 (0 : Fin 1) (0 : Fin 1)) = _
  rw [accAt_eq m c 63]
  show zero + ∑ b ∈ Finset.range 64, obsT m c b = _
  unfold obsSum
  refine congrArg (zero + ·) (range_sum _ _ fun b => ?_)
  have hb : b.val < cfg0.N := lt_of_lt_of_eq b.isLt N_0.symm
  unfold obsT; rw [dif_pos hb, traj0 m c b hb, cen2 m c b hb, rad3 m c b hb, mean4 m c, std5 m c]

end Cert.KernelIdeal.Closed

end
-- ==== Proof.LibIdx3.lean ====
/-
  Sums over the index set of a rank-3 array, coordinate by coordinate.
-/
import Idealize.ShloMosaic.Lib.ValueIdx

namespace Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The part of a rank-3 sum whose LAST coordinate is `j`: the double sum over the first two. -/
theorem sum_idx3_filter_last {M : Type*} [AddCommMonoid M] {n0 n1 n2 : Nat} (f : (⟨3, ![n0, n1, n2]⟩ : Shape).Idx → M)
    (j : Fin n2) :
    ∑ i ∈ Finset.univ.filter (fun i : (⟨3, ![n0, n1, n2]⟩ : Shape).Idx => (i 2).val = j.val), f i
      = ∑ a : Fin n0, ∑ b : Fin n1, f (ix3 a b j) := by
  rw [Finset.sum_filter, sum_idx3]
  refine Finset.sum_congr rfl fun a _ => Finset.sum_congr rfl fun b _ => ?_
  rw [Finset.sum_eq_single j]
  · exact if_pos rfl
  · intro c _ hc; exact if_neg (fun h => hc (Fin.ext h))
  · intro h; exact absurd (Finset.mem_univ j) h

end Idealize.ShloMosaic.ValueIdx
-- ==== Proof.RefPos.lean ====
/-
  Three of the reference's intermediate sums, read at an index over the extended reals.

  The reference sums the squared position error and the squared error of the row-to-row differences over the
  batch axis and the row axis at once, keeping the coordinate axis; the squared error of the last row it sums over
  the batch axis alone.  Each entry of such a result is the initial value plus the sum of the operand's entries that
  lie over it.  For a rank-3 operand summed over its first two axes, the entries over coordinate `j` are exactly the
  indices whose last coordinate is `j`, so the sum is the double sum over (batch member, row) of column `j`.
  Reading every stage at an index, the summand is the squared difference the specification names, at the same
  entries of the two whole arrays.
-/
import proofs.«164508_j69492570849790_1_alg».proof.Proof.Gen.ReferenceIdeal.Read
import proofs.«164508_j69492570849790_1_alg».proof.Proof.Spec
import proofs.«164508_j69492570849790_1_alg».proof.Proof.LibIdx3
import Idealize.ShloMosaic.PureOps.Ideal.Laws
import Idealize.ShloMosaic.Lib.ValueIdx
import Idealize.ShloMosaic.Lib.IdealHost

set_option maxRecDepth 16384

noncomputable section

namespace Cert.ReferenceIdeal.Totals

open Idealize.ShloMosaic Idealize.ShloMosaic.ValueIdx Cert.ReferenceIdeal Cert.ReferenceIdeal.Read Cert.Loss

/-- A rank-3 array summed over its first two axes: entry `j` of the result is the initial value plus the double
    sum of the entries whose last coordinate is `j`. -/
theorem hostReduceAdd_first_two {n0 n1 n2 : Nat}
    (h : (⟨3, ![n0, n1, n2]⟩ : Shape).ReducesTo ([0, 1] : List (Fin 3)) ⟨1, ![n2]⟩)
    (x : (⟨3, ![n0, n1, n2]⟩ : Shape).Idx → EReal) (init : EReal) (j : Fin n2) :
    Ideal.hostReduceAdd h x init (ix1 j) = init + ∑ a : Fin n0, ∑ b : Fin n1, x (ix3 a b j) := by
  unfold Ideal.hostReduceAdd
  -- An index lies over `j` exactly when its last coordinate is `j`: the kept axis is the last one.
  have hf : (Finset.univ.filter (fun i : (⟨3, ![n0, n1, n2]⟩ : Shape).Idx => h.drop i = ix1 j))
      = Finset.univ.filter (fun i : (⟨3, ![n0, n1, n2]⟩ : Shape).Idx => (i 2).val = j.val) := by
    refine Finset.filter_congr fun i _ => ?_
    have hv : (h.drop i (0 : Fin 1) : Nat) = i (2 : Fin 3) := rfl
    constructor
    · intro e; rw [e] at hv; exact hv.symm
    · intro e; funext a; match a with | ⟨0, _⟩ => exact Fin.ext (hv.trans e)
  rw [hf, sum_idx3_filter_last]

/-- The squared position error, summed over batch members and rows. -/
theorem ref_pos (P G : (⟨S64x4096x32, .f32⟩ : BufTy).Contents (Elt Ideal)) (j : Fin 3) :
    val_main_v4 (F := Ideal) P G (ix1 j) = posSum P G j := by
  unfold val_main_v4 posSum
  refine (hostReduceAdd_apply _ _ _ _ _).trans ?_
  refine (hostReduceAdd_first_two _ _ _ _).trans ?_
  refine congrArg₂ (· + ·) rfl (Finset.sum_congr rfl fun b _ => ?_)
  unfold posTerm
  refine Finset.sum_congr rfl fun s _ => ?_
  rw [val_main_v3_apply, val_main_v2_apply, val_main_v0_apply, val_main_v1_apply]
  have e0 : idx_main_v0 (ix3 b s j) = ix3 b s (col j) := by
    funext a; match a with | ⟨0, _⟩ => rfl | ⟨1, _⟩ => rfl | ⟨2, _⟩ => rfl
  have e1 : idx_main_v1 (ix3 b s j) = ix3 b s (col j) := e0
  rw [e0, e1]
  rfl

/-- The squared error of the last row, summed over batch members. -/
theorem ref_last (P G : (⟨S64x4096x32, .f32⟩ : BufTy).Contents (Elt Ideal)) (j : Fin 3) :
    val_main_v14 (F := Ideal) P G (ix1 j) = lastSum P G j := by
  rw [val_main_v14_apply]
  unfold lastSum
  refine congrArg₂ (· + ·) rfl (Finset.sum_congr rfl fun b _ => ?_)
  unfold lastTerm
  rw [val_main_v13_apply, val_main_v12_apply, val_main_v9_apply, val_main_v11_apply, val_main_v8_apply,
    val_main_v10_apply, val_main_v0_apply, val_main_v1_apply]
  -- Row-major position b·3 + j of the [64, 3] array is entry (b, 0, j) of the [64, 1, 3] slice at row 4095.
  have e0 : idx_main_v0 (idx_main_v8 (idx_main_v9 (idx_main_v14 (ix1 j) b))) = ix3 b lastRow (col j) := by
    have hj := j.isLt
    funext a
    match a with
    | ⟨0, _⟩ => exact Fin.ext (by show (b.val * 3 + j.val) / 3 = b.val; omega)
    | ⟨1, _⟩ => rfl
    | ⟨2, _⟩ => exact Fin.ext (by show 1 + (b.val * 3 + j.val) % 3 = 1 + j.val; omega)
  have e1 : idx_main_v1 (idx_main_v10 (idx_main_v11 (idx_main_v14 (ix1 j) b))) = ix3 b lastRow (col j) := e0
  rw [e0, e1]
  rfl

/-- The squared error of the row-to-row differences, summed over batch members and rows. -/
theorem ref_vel (P G : (⟨S64x4096x32, .f32⟩ : BufTy).Contents (Elt Ideal)) (j : Fin 3) :
    val_main_v28 (F := Ideal) P G (ix1 j) = velSum P G j := by
  unfold val_main_v28 velSum
  refine (hostReduceAdd_apply _ _ _ _ _).trans ?_
  refine (hostReduceAdd_first_two _ _ _ _).trans ?_
  refine congrArg₂ (· + ·) rfl (Finset.sum_congr rfl fun b _ => ?_)
  unfold velTerm
  refine Finset.sum_congr rfl fun s _ => ?_
  rw [val_main_v27_apply, val_main_v26_apply, val_main_v22_apply, val_main_v25_apply, val_main_v20_apply,
    val_main_v21_apply, val_main_v23_apply, val_main_v24_apply, val_main_v0_apply, val_main_v0_apply,
    val_main_v1_apply, val_main_v1_apply]
  -- The slice of rows 1 … 4095 at row s is row s + 1; the slice of rows 0 … 4094 at row s is row s.
  have eS : idx_main_v0 (idx_main_v20 (ix3 b s j)) = ix3 b (succRow s) (col j) := by
    funext a; match a with | ⟨0, _⟩ => rfl | ⟨1, _⟩ => rfl | ⟨2, _⟩ => rfl
  have eT : idx_main_v0 (idx_main_v21 (ix3 b s j)) = ix3 b (thisRow s) (col j) := by
    funext a
    match a with
    | ⟨0, _⟩ => rfl
    | ⟨1, _⟩ => exact Fin.ext (by show s.val = 0 + s.val; omega)
    | ⟨2, _⟩ => rfl
  have eS' : idx_main_v1 (idx_main_v23 (ix3 b s j)) = ix3 b (succRow s) (col j) := eS
  have eT' : idx_main_v1 (idx_main_v24 (ix3 b s j)) = ix3 b (thisRow s) (col j) := eT
  rw [eS, eT, eS', eT']
  rfl

end Cert.ReferenceIdeal.Totals

end
-- ==== Proof.RefObs.lean ====
/-
  Two of the reference's total sums, as the specification states them.

  The sum of the squared errors of the 29 features outside the position: the reference joins feature 0 and
  features 4 … 31 into one array of 29 columns and sums its squared differences over everything; column 0 of the
  joined array is feature 0 and column k + 1 is feature 4 + k, so the sum over the 29 columns is the sum over the
  first feature plus the sum over the last 28.

  The obstacle sum: the reference computes the squared distance of a position p to a centre c as
  (‖p‖² + ‖c‖²) − 2 p·c, the specification as ∑ (p_d − c_d)². On real numbers the two agree (on the extended
  reals they need not: ∞ − ∞), which is where the inputs being real is used. Everything after the squared distance
  — the clamp at zero, the square root, 2.2 r minus it, the second clamp, the square, the total — is the same
  expression on both sides.
-/
import proofs.«164508_j69492570849790_1_alg».proof.Proof.Gen.ReferenceIdeal.Read
import proofs.«164508_j69492570849790_1_alg».proof.Proof.Spec
import proofs.«164508_j69492570849790_1_alg».proof.Proof.LibIdx3
import Idealize.ShloMosaic.PureOps.Ideal.Laws
import Idealize.ShloMosaic.Lib.ValueIdx
import Idealize.ShloMosaic.Lib.IdealHost
import Idealize.ShloMosaic.Lib.Pipeline.Value
set_option maxRecDepth 16384
noncomputable section
namespace Cert.ReferenceIdeal.Totals
open Idealize.ShloMosaic Idealize.ShloMosaic.ValueIdx Cert.ReferenceIdeal Cert.ReferenceIdeal.Read Cert.Loss

/-! ## The joined 29-column arrays, column by column -/

theorem v34_zero (P : (⟨S64x4096x32, .f32⟩ : BufTy).Contents (Elt Ideal)) (b : Fin 64) (s : Fin 4096) :
    val_main_v34 (F := Ideal) P (ix3 b s (0 : Fin 29)) = P (ix3 b s (firstCol 0)) := by
  unfold val_main_v34
  rw [concatenate_pair_apply_left (t := S64x4096x29) (s₁ := S64x4096x1) (s₂ := S64x4096x28) (2 : Fin 3) _ _ _
    (ix3 b s (0 : Fin 29)) rfl (ix3 b s (0 : Fin 1))
    (fun a => by match a with | ⟨0, _⟩ => rfl | ⟨1, _⟩ => rfl | ⟨2, _⟩ => rfl)]
  rw [val_main_v32_apply]
  exact congrArg P (funext fun a => by match a with | ⟨0, _⟩ => rfl | ⟨1, _⟩ => rfl | ⟨2, _⟩ => rfl)

theorem v34_succ (P : (⟨S64x4096x32, .f32⟩ : BufTy).Contents (Elt Ideal)) (b : Fin 64) (s : Fin 4096) (k : Fin 28) :
    val_main_v34 (F := Ideal) P (ix3 b s (k.succ : Fin 29)) = P (ix3 b s (restCol k)) := by
  unfold val_main_v34
  rw [concatenate_pair_apply_right (t := S64x4096x29) (s₁ := S64x4096x1) (s₂ := S64x4096x28) (2 : Fin 3) _ _ _
    (ix3 b s (k.succ : Fin 29)) rfl rfl (ix3 b s k)
    (fun a => by match a with | ⟨0, _⟩ => intro _; rfl | ⟨1, _⟩ => intro _; rfl | ⟨2, _⟩ => intro h; exact absurd rfl h)
    (by rfl)]
  rw [val_main_v33_apply]
  exact congrArg P (funext fun a => by match a with | ⟨0, _⟩ => rfl | ⟨1, _⟩ => rfl | ⟨2, _⟩ => rfl)

theorem v37_zero (G : (⟨S64x4096x32, .f32⟩ : BufTy).Contents (Elt Ideal)) (b : Fin 64) (s : Fin 4096) :
    val_main_v37 (F := Ideal) G (ix3 b s (0 : Fin 29)) = G (ix3 b s (firstCol 0)) := by
  unfold val_main_v37
  rw [concatenate_pair_apply_left (t := S64x4096x29) (s₁ := S64x4096x1) (s₂ := S64x4096x28) (2 : Fin 3) _ _ _
    (ix3 b s (0 : Fin 29)) rfl (ix3 b s (0 : Fin 1))
    (fun a => by match a with | ⟨0, _⟩ => rfl | ⟨1, _⟩ => rfl | ⟨2, _⟩ => rfl)]
  rw [val_main_v35_apply]
  exact congrArg G (funext fun a => by match a with | ⟨0, _⟩ => rfl | ⟨1, _⟩ => rfl | ⟨2, _⟩ => rfl)

theorem v37_succ (G : (⟨S64x4096x32, .f32⟩ : BufTy).Contents (Elt Ideal)) (b : Fin 64) (s : Fin 4096) (k : Fin 28) :
    val_main_v37 (F := Ideal) G (ix3 b s (k.succ : Fin 29)) = G (ix3 b s (restCol k)) := by
  unfold val_main_v37
  rw [concatenate_pair_apply_right (t := S64x4096x29) (s₁ := S64x4096x1) (s₂ := S64x4096x28) (2 : Fin 3) _ _ _
    (ix3 b s (k.succ : Fin 29)) rfl rfl (ix3 b s k)
    (fun a => by match a with | ⟨0, _⟩ => intro _; rfl | ⟨1, _⟩ => intro _; rfl | ⟨2, _⟩ => intro h; exact absurd rfl h)
    (by rfl)]
  rw [val_main_v36_apply]
  exact congrArg G (funext fun a => by match a with | ⟨0, _⟩ => rfl | ⟨1, _⟩ => rfl | ⟨2, _⟩ => rfl)

theorem ref_other (P G : (⟨S64x4096x32, .f32⟩ : BufTy).Contents (Elt Ideal)) :
    val_main_v40 (F := Ideal) P G ix0 = otherSum P G := by
  rw [val_main_v40_apply, sum_idx3]
  unfold otherSum otherTerm
  refine congrArg₂ (· + ·) rfl (Finset.sum_congr rfl fun b _ => ?_)
  rw [← Finset.sum_add_distrib]
  refine Finset.sum_congr rfl fun s _ => ?_
  rw [Fin.sum_univ_succ, Fin.sum_univ_one]
  refine congrArg₂ (· + ·) ?_ (Finset.sum_congr rfl fun k _ => ?_)
  · rw [val_main_v39_apply, val_main_v38_apply, v34_zero, v37_zero]; rfl
  · rw [val_main_v39_apply, val_main_v38_apply, v34_succ, v37_succ]; rfl

/-! ## The squared distance -/

/-- The f32 word of 2.0 is the real number two. -/
theorem ofBits_two_f32 : Ideal.ofBits .f32 0x40000000#32 = ((2 : ℝ) : EReal) := by
  simp [Ideal.ofBits, Ideal.ieee, -EReal.coe_mul]; norm_num

/-- Over real numbers, ‖p‖² + ‖c‖² − 2 p·c = ‖p − c‖², coordinate by coordinate in three dimensions. -/
theorem dist_law (p c : Fin 3 → EReal) (hp : ∀ d, ∃ r : ℝ, p d = (r : EReal)) (hc : ∀ d, ∃ r : ℝ, c d = (r : EReal)) :
    ((zero + ∑ d : Fin 3, p d * p d) + (zero + ∑ d : Fin 3, c d * c d))
        - Ideal.ofBits .f32 0x40000000#32 * ∑ d : Fin 3, p d * c d
      = ∑ d : Fin 3, Cert.Loss.sq (p d - c d) := by
  choose pr hpr using hp
  choose cr hcr using hc
  unfold Cert.Loss.sq Cert.Loss.zero
  simp only [Fin.sum_univ_three, hpr, hcr, Ideal.ofBits_zero_f32, ofBits_two_f32, zero_add]
  norm_cast
  ring

/-- The reference's de-normalised position, read at a row and a coordinate. -/
theorem read_v51 (P : (⟨S64x4096x32, .f32⟩ : BufTy).Contents (Elt Ideal)) (Mn Sd : (⟨S1x1x32, .f32⟩ : BufTy).Contents (Elt Ideal))
    (b : Fin 64) (s : Fin 4096) (d : Fin 3) :
    val_main_v51 (F := Ideal) P Mn Sd (ix3 b s d) = denorm (trajOf P b) Mn Sd s d := by
  have e0 : idx_main_v0 (ix3 b s d) = ix3 b s (col d) :=
    funext fun a => by match a with | ⟨0, _⟩ => rfl | ⟨1, _⟩ => rfl | ⟨2, _⟩ => rfl
  have e1 : idx_main_v42 (idx_main_v43 (idx_main_v44 (idx_main_v45 (ix3 b s d)))) = ix3 0 0 (col d) :=
    funext fun a => by
      match a with
      | ⟨0, _⟩ => rfl
      | ⟨1, _⟩ => rfl
      | ⟨2, _⟩ => exact Fin.ext (by show 1 + d.val % 3 = 1 + d.val; rw [Nat.mod_eq_of_lt d.isLt])
  have e2 : idx_main_v47 (idx_main_v48 (idx_main_v49 (idx_main_v50 (ix3 b s d)))) = ix3 0 0 (col d) :=
    funext fun a => by
      match a with
      | ⟨0, _⟩ => rfl
      | ⟨1, _⟩ => rfl
      | ⟨2, _⟩ => exact Fin.ext (by show 1 + d.val % 3 = 1 + d.val; rw [Nat.mod_eq_of_lt d.isLt])
  rw [val_main_v51_apply, val_main_v46_apply, val_main_v0_apply, val_main_v45_apply, val_main_v44_apply,
    val_main_v43_apply, val_main_v42_apply, val_main_v50_apply, val_main_v49_apply, val_main_v48_apply,
    val_main_v47_apply, e0, e1, e2]
  rfl

/-- ‖p‖² as the reference sums it. -/
theorem read_v53 (P : (⟨S64x4096x32, .f32⟩ : BufTy).Contents (Elt Ideal)) (Mn Sd : (⟨S1x1x32, .f32⟩ : BufTy).Contents (Elt Ideal))
    (b : Fin 64) (s : Fin 4096) :
    val_main_v53 (F := Ideal) P Mn Sd (ix2 b s)
      = zero + ∑ d : Fin 3, denorm (trajOf P b) Mn Sd s d * denorm (trajOf P b) Mn Sd s d := by
  rw [val_main_v53_apply]
  refine congrArg₂ (· + ·) rfl (Finset.sum_congr rfl fun d _ => ?_)
  have e : idx_main_v53 (ix2 b s) d = ix3 b s d :=
    funext fun a => by match a with | ⟨0, _⟩ => rfl | ⟨1, _⟩ => rfl | ⟨2, _⟩ => rfl
  rw [val_main_v52_apply, e, read_v51]
  rfl

/-- ‖c‖² as the reference sums it. -/
theorem read_v55 (C : (⟨S64x32x3, .f32⟩ : BufTy).Contents (Elt Ideal)) (b : Fin 64) (k : Fin 32) :
    val_main_v55 (F := Ideal) C (ix2 b k) = zero + ∑ d : Fin 3, C (ix3 b k d) * C (ix3 b k d) := by
  rw [val_main_v55_apply]
  refine congrArg₂ (· + ·) rfl (Finset.sum_congr rfl fun d _ => ?_)
  have e : idx_main_v55 (ix2 b k) d = ix3 b k d :=
    funext fun a => by match a with | ⟨0, _⟩ => rfl | ⟨1, _⟩ => rfl | ⟨2, _⟩ => rfl
  rw [val_main_v54_apply, e]
  rfl

/-- p·c as the reference's contraction sums it. -/
theorem read_v56 (P : (⟨S64x4096x32, .f32⟩ : BufTy).Contents (Elt Ideal)) (C : (⟨S64x32x3, .f32⟩ : BufTy).Contents (Elt Ideal))
    (Mn Sd : (⟨S1x1x32, .f32⟩ : BufTy).Contents (Elt Ideal)) (b : Fin 64) (s : Fin 4096) (k : Fin 32) :
    val_main_v56 (F := Ideal) P C Mn Sd (ix3 b s k)
      = ∑ d : Fin 3, denorm (trajOf P b) Mn Sd s d * C (ix3 b k d) := by
  rw [val_main_v56_apply]
  refine Finset.sum_congr rfl fun d _ => ?_
  have el : lidx_main_v56 (ix3 b s k) d = ix3 b s d :=
    funext fun a => by match a with | ⟨0, _⟩ => rfl | ⟨1, _⟩ => rfl | ⟨2, _⟩ => rfl
  have er : ridx_main_v56 (ix3 b s k) d = ix3 b k d :=
    funext fun a => by match a with | ⟨0, _⟩ => rfl | ⟨1, _⟩ => rfl | ⟨2, _⟩ => rfl
  rw [el, er, read_v51]

/-- The reference's squared distance is the specification's, on real inputs. -/
theorem read_v64 (P : (⟨S64x4096x32, .f32⟩ : BufTy).Contents (Elt Ideal)) (C : (⟨S64x32x3, .f32⟩ : BufTy).Contents (Elt Ideal))
    (Mn Sd : (⟨S1x1x32, .f32⟩ : BufTy).Contents (Elt Ideal))
    (hP : AllReal P) (hC : AllReal C) (hMn : AllReal Mn) (hSd : AllReal Sd) (b : Fin 64) (s : Fin 4096) (k : Fin 32) :
    val_main_v64 (F := Ideal) P C Mn Sd (ix3 b s k) = dist2 (trajOf P b) Mn Sd (cenOf C b) s k := by
  have e1 : idx_main_v57 (idx_main_v59 (ix3 b s k)) = ix2 b s :=
    funext fun a => by match a with | ⟨0, _⟩ => rfl | ⟨1, _⟩ => rfl
  have e2 : idx_main_v58 (idx_main_v60 (ix3 b s k)) = ix2 b k :=
    funext fun a => by match a with | ⟨0, _⟩ => rfl | ⟨1, _⟩ => rfl
  rw [val_main_v64_apply, val_main_v61_apply, val_main_v59_apply, val_main_v57_apply, val_main_v60_apply,
    val_main_v58_apply, val_main_v63_apply, val_main_v62_apply, val_main_cst_13_apply, e1, e2,
    read_v53, read_v55, read_v56]
  refine dist_law (fun d => denorm (trajOf P b) Mn Sd s d) (fun d => C (ix3 b k d)) (fun d => ?_) (fun d => hC _)
  obtain ⟨x, hx⟩ := hP (ix3 b s (col d))
  obtain ⟨σ, hσ⟩ := hSd (ix3 0 0 (col d))
  obtain ⟨μ, hμ⟩ := hMn (ix3 0 0 (col d))
  refine ⟨x * σ + μ, ?_⟩
  show P (ix3 b s (col d)) * Sd (ix3 0 0 (col d)) + Mn (ix3 0 0 (col d)) = _
  rw [hx, hσ, hμ, EReal.coe_add, EReal.coe_mul]

/-- 2.2 · r as the reference broadcasts it. -/
theorem read_v71 (R : (⟨S64x32, .f32⟩ : BufTy).Contents (Elt Ideal)) (b : Fin 64) (s : Fin 4096) (k : Fin 32) :
    val_main_v71 (F := Ideal) R (ix3 b s k) = margin * radOf R b (ix3 0 0 k) := by
  have e : idx_main_v68 (idx_main_v71 (ix3 b s k)) = ix2 b k :=
    funext fun a => by match a with | ⟨0, _⟩ => rfl | ⟨1, _⟩ => rfl
  rw [val_main_v71_apply, val_main_v70_apply, val_main_v69_apply, val_main_cst_15_apply, val_main_v68_apply, e]
  rfl

theorem ref_obs (P : (⟨S64x4096x32, .f32⟩ : BufTy).Contents (Elt Ideal)) (C : (⟨S64x32x3, .f32⟩ : BufTy).Contents (Elt Ideal))
    (R : (⟨S64x32, .f32⟩ : BufTy).Contents (Elt Ideal)) (Mn Sd : (⟨S1x1x32, .f32⟩ : BufTy).Contents (Elt Ideal))
    (hP : AllReal P) (hC : AllReal C) (hMn : AllReal Mn) (hSd : AllReal Sd) :
    val_main_v76 (F := Ideal) P C R Mn Sd ix0 = obsSum P C R Mn Sd := by
  rw [val_main_v76_apply, sum_idx3]
  unfold obsSum obsTerm
  refine congrArg₂ (· + ·) rfl (Finset.sum_congr rfl fun b _ => Finset.sum_congr rfl fun s _ =>
    Finset.sum_congr rfl fun k _ => ?_)
  rw [val_main_v75_apply, val_main_v74_apply, val_main_v72_apply, read_v71, val_main_v67_apply,
    val_main_v66_apply, read_v64 P C Mn Sd hP hC hMn hSd, val_main_v73_apply, val_main_cst_16_apply,
    val_main_v65_apply, val_main_cst_14_apply]
  rfl

end Cert.ReferenceIdeal.Totals

end
-- ==== Proof.Bridge.lean ====
/-
  The two programs return the same four numbers.

  The kernel divides each accumulated total by its count and sums the three coordinates (the one-entry totals it
  just divides); the reference divides its totals by the same counts and sums the same three entries.  With the
  kernel's result arrays and the reference's intermediate sums both equal to the specification's totals, the
  returned values are the same expressions of the same numbers.
-/
import proofs.«164508_j69492570849790_1_alg».proof.Proof.Kernel
import proofs.«164508_j69492570849790_1_alg».proof.Proof.RefPos
import proofs.«164508_j69492570849790_1_alg».proof.Proof.RefObs
import Idealize.ShloMosaic.Lib.IdealHost
import Idealize.ShloMosaic.Lib.ValueIdxRank1

set_option maxRecDepth 16384

noncomputable section

open Idealize.ShloMosaic Idealize.ShloMosaic.TcCoe Idealize.SL.Sem

namespace Cert.Bridge

open Cert.KernelIdeal Cert.KernelIdeal.Gen Cert.KernelIdeal.Acc Cert.KernelIdeal.Closed Cert.Loss
open Cert.ReferenceIdeal.Read Cert.ReferenceIdeal.Totals
open Idealize.ShloMosaic.ValueIdx

/-! ## The kernel's host lines at the one index of a scalar -/

theorem meanSum_apply (A : Vec Ideal S1x3 .f32) (cnt : BitVec 32) :
    meanSum (F := Ideal) A cnt ix0 = zero + ∑ j : Fin 3, Ideal.div (A (ix2 (0 : Fin 1) j)) (Ideal.ofBits .f32 cnt) := by
  unfold meanSum
  rw [hostReduceAdd_apply, Ideal.hostReduceAdd_total _ (fun b => b.elim0), sum_idx2, Fin.sum_univ_one]
  rfl

theorem meanOne_apply (A : Vec Ideal S1x1 .f32) (cnt : BitVec 32) :
    meanOne (F := Ideal) A cnt ix0 = Ideal.div (A (ix2 (0 : Fin 1) (0 : Fin 1))) (Ideal.ofBits .f32 cnt) := by
  unfold meanOne
  show Ideal.div (shapeCast S_ A shapeCasts_S1x1_S_ ix0) _ = _
  rw [shapeCast_apply A shapeCasts_S1x1_S_ ix0 (ix2 (0 : Fin 1) (0 : Fin 1)) (by decide)]
  rfl

/-! ## The reference's normalised sums at the one index of a scalar -/

section Ref
variable (P G : (⟨Cert.ReferenceIdeal.S64x4096x32, .f32⟩ : BufTy).Contents (Elt Ideal))

theorem mean_pos : val_main_v7 (F := Ideal) P G ix0
    = zero + ∑ j : Fin 3, Ideal.div (posSum P G j) (Ideal.ofBits .f32 0x48800000#32) := by
  rw [val_main_v7_apply, ← Equiv.sum_comp (idxEquiv1 (n := 3)).symm]
  refine congrArg₂ (· + ·) rfl (Finset.sum_congr rfl fun j _ => ?_)
  show Ideal.div (val_main_v4 (F := Ideal) P G (ix1 j)) _ = _
  rw [ref_pos]; rfl

theorem mean_last : val_main_v17 (F := Ideal) P G ix0
    = zero + ∑ j : Fin 3, Ideal.div (lastSum P G j) (Ideal.ofBits .f32 0x42800000#32) := by
  rw [val_main_v17_apply, ← Equiv.sum_comp (idxEquiv1 (n := 3)).symm]
  refine congrArg₂ (· + ·) rfl (Finset.sum_congr rfl fun j _ => ?_)
  show Ideal.div (val_main_v14 (F := Ideal) P G (ix1 j)) _ = _
  rw [ref_last]; rfl

theorem mean_vel : val_main_v31 (F := Ideal) P G ix0
    = zero + ∑ j : Fin 3, Ideal.div (velSum P G j) (Ideal.ofBits .f32 0x487FF000#32) := by
  rw [val_main_v31_apply, ← Equiv.sum_comp (idxEquiv1 (n := 3)).symm]
  refine congrArg₂ (· + ·) rfl (Finset.sum_congr rfl fun j _ => ?_)
  show Ideal.div (val_main_v28 (F := Ideal) P G (ix1 j)) _ = _
  rw [ref_vel]; rfl

end Ref

/-! ## The four returned values -/

variable (m : (ℓ : Loc nD τ sig) → Buf (Elt Ideal) ℓ)

theorem position_eq (c : Dev nD) :
    val_main_v19 (F := Ideal) (m ((c : Thread nD τ).loc main_arg0)) (m ((c : Thread nD τ).loc main_arg1))
      = positionLoss (res6 m c) (res7 m c) := by
  funext i; obtain rfl := eq_ix0 i
  show val_main_v7 (F := Ideal) _ _ ix0 + Ideal.ofBits .f32 0x41200000#32 * val_main_v17 (F := Ideal) _ _ ix0
    = meanSum (F := Ideal) (res6 m c) 0x48800000#32 ix0
      + Ideal.ofBits .f32 0x41200000#32 * meanSum (F := Ideal) (res7 m c) 0x42800000#32 ix0
  rw [mean_pos, mean_last, meanSum_apply, meanSum_apply]
  simp only [res6_eq, res7_eq]

theorem velocity_eq (c : Dev nD) :
    val_main_v31 (F := Ideal) (m ((c : Thread nD τ).loc main_arg0)) (m ((c : Thread nD τ).loc main_arg1))
      = meanSum (res8 m c) 0x487FF000#32 := by
  funext i; obtain rfl := eq_ix0 i
  rw [mean_vel, meanSum_apply]
  simp only [res8_eq]

theorem other_eq (c : Dev nD) :
    val_main_v41 (F := Ideal) (m ((c : Thread nD τ).loc main_arg0)) (m ((c : Thread nD τ).loc main_arg1))
      = meanOne (res9 m c) 0x4AE80000#32 := by
  funext i; obtain rfl := eq_ix0 i
  rw [meanOne_apply, res9_eq]
  show Ideal.div (val_main_v40 (F := Ideal) _ _ ix0) _ = _
  rw [ref_other]; rfl

theorem obstacle_eq (c : Dev nD)
    (hP : AllReal (m ((c : Thread nD τ).loc main_arg0))) (hC : AllReal (m ((c : Thread nD τ).loc main_arg2)))
    (hMn : AllReal (m ((c : Thread nD τ).loc main_arg4))) (hSd : AllReal (m ((c : Thread nD τ).loc main_arg5))) :
    val_main_v77 (F := Ideal) (m ((c : Thread nD τ).loc main_arg0)) (m ((c : Thread nD τ).loc main_arg2))
        (m ((c : Thread nD τ).loc main_arg3)) (m ((c : Thread nD τ).loc main_arg4)) (m ((c : Thread nD τ).loc main_arg5))
      = meanOne (res10 m c) 0x48800000#32 := by
  funext i; obtain rfl := eq_ix0 i
  rw [meanOne_apply, res10_eq]
  show Ideal.div (val_main_v76 (F := Ideal) _ _ _ _ _ ix0) _ = _
  rw [ref_obs _ _ _ _ _ hP hC hMn hSd]; rfl

theorem total_eq (c : Dev nD)
    (hP : AllReal (m ((c : Thread nD τ).loc main_arg0))) (hC : AllReal (m ((c : Thread nD τ).loc main_arg2)))
    (hMn : AllReal (m ((c : Thread nD τ).loc main_arg4))) (hSd : AllReal (m ((c : Thread nD τ).loc main_arg5))) :
    val_main_v83 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = totalLoss (res6 m c) (res7 m c) (res8 m c) (res9 m c) (res10 m c) := by
  show addf (addf (addf (mulf (constant (F := Ideal) Cert.ReferenceIdeal.S_ .f32 0x40000000#32) (val_main_v19 (F := Ideal) _ _))
        (mulf (constant (F := Ideal) Cert.ReferenceIdeal.S_ .f32 0x3F000000#32) (val_main_v31 (F := Ideal) _ _))) (val_main_v41 (F := Ideal) _ _))
      (mulf (constant (F := Ideal) Cert.ReferenceIdeal.S_ .f32 0x41200000#32) (val_main_v77 (F := Ideal) _ _ _ _ _)) = _
  rw [position_eq, velocity_eq, other_eq, obstacle_eq m c hP hC hMn hSd]
  rfl

end Cert.Bridge

end
-- ==== Proof.Finite.lean ====
/-
  The precondition, read back: every entry of every argument array is a real number.

  The precondition is the conjunction, over the six arguments, of "every entry's absolute value is below +∞".  An
  extended real whose absolute value max(x, −x) is below +∞ is neither +∞ nor −∞, hence a real number.
-/
import proofs.«164508_j69492570849790_1_alg».proof.Pre_finite_inputs
import proofs.«164508_j69492570849790_1_alg».proof.Proof.Gen.Pre_finite_inputs
import proofs.«164508_j69492570849790_1_alg».proof.Proof.Spec
import Idealize.ShloMosaic.PureOps.Ideal.Laws
import Idealize.ShloMosaic.Lib.ReduceAll
import Idealize.ShloMosaic.Lib.ValueIdx

set_option maxRecDepth 16384

noncomputable section

namespace Cert.Pre_finite_inputs.Real

open Idealize.ShloMosaic Idealize.ShloMosaic.ValueIdx Cert.Pre_finite_inputs Cert.Loss

instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

/-- The precondition gives the trajectory, the centres, the mean and the std real entries. -/
theorem reals (P G : FVec Ideal S64x4096x32 .f32) (C : FVec Ideal S64x32x3 .f32) (R : FVec Ideal S64x32 .f32)
    (Mn Sd : FVec Ideal S1x1x32 .f32) (h : fn (F := Ideal) P G C R Mn Sd = fun _ => 1#1) :
    AllReal P ∧ AllReal C ∧ AllReal Mn ∧ AllReal Sd := by
  have h0 := congrFun h ix0
  dsimp only [fn, fn_part1] at h0
  obtain ⟨h5, hSd⟩ := IntOp.andi_eq_one.1 h0
  obtain ⟨h4, hMn⟩ := IntOp.andi_eq_one.1 h5
  obtain ⟨h3, hR⟩ := IntOp.andi_eq_one.1 h4
  obtain ⟨h2, hC⟩ := IntOp.andi_eq_one.1 h3
  obtain ⟨hP, hG⟩ := IntOp.andi_eq_one.1 h2
  exact ⟨fun i => real_of_abs_lt _ (Host.reduce_andi_all _ _ _ _ _ hP i),
    fun i => real_of_abs_lt _ (Host.reduce_andi_all _ _ _ _ _ hC i),
    fun i => real_of_abs_lt _ (Host.reduce_andi_all _ _ _ _ _ hMn i),
    fun i => real_of_abs_lt _ (Host.reduce_andi_all _ _ _ _ _ hSd i)⟩

end Cert.Pre_finite_inputs.Real

end
-- ==== Proof.lean ====
/-
  The trajectory loss computed by the kernel equals the reference's, over the extended reals.

  The kernel walks the 64 batch members on a grid, adding each member's contributions to five running sums (the
  squared position error per coordinate, the squared error of the last position, of the finite differences and of
  the remaining features, and the squared obstacle penalty), and normalises and combines them on the host; the
  reference computes the same five totals with whole-array operations.  Both return
  2·position + ½·velocity + other + 10·obstacle together with the position, velocity and obstacle losses.
  The one algebraic difference is the squared distance to an obstacle centre, which the reference expands as
  ‖p‖² + ‖c‖² − 2 p·c: equal on real numbers, which the precondition (every input finite) provides.  The three
  frames are the generated ones (the reference's from its run); no operation was rewritten by the idealisation.
-/
import proofs.«164508_j69492570849790_1_alg».proof.Defs
import proofs.«164508_j69492570849790_1_alg».proof.Proof.Gen.Kernel
import proofs.«164508_j69492570849790_1_alg».proof.Proof.Gen.Kernel.Frame
import proofs.«164508_j69492570849790_1_alg».proof.Proof.Gen.KernelIdeal
import proofs.«164508_j69492570849790_1_alg».proof.Proof.Gen.KernelIdeal.Frame
import proofs.«164508_j69492570849790_1_alg».proof.Proof.Gen.ReferenceIdeal
import proofs.«164508_j69492570849790_1_alg».proof.Proof.Gen.ReferenceIdeal.Run
import proofs.«164508_j69492570849790_1_alg».proof.Proof.Gen.ReferenceIdeal.Read
import proofs.«164508_j69492570849790_1_alg».proof.Proof.Gen.Pre_finite_inputs
import proofs.«164508_j69492570849790_1_alg».proof.Proof.Bridge
import proofs.«164508_j69492570849790_1_alg».proof.Proof.Finite
import Idealize.ShloMosaic.Adequacy
import Idealize.ShloMosaic.Init

set_option maxRecDepth 16384

noncomputable section

namespace Cert.Proof

open Idealize.ShloMosaic Idealize.SL.Sem

/-- The three programs run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealisation rewrote nothing. -/
theorem preserves : Cert.preserves_Kernel_KernelIdeal := trivial

/-- From memories agreeing on the arguments, both programs end with the same four losses. -/
theorem algebraic : Cert.algebraic_KernelIdeal_ReferenceIdeal := by
  intro m ρ m' ρ' hpre hagree
  refine ⟨fun c => Cert.KernelIdeal.Acc.totalLoss (Cert.KernelIdeal.Acc.res6 m c) (Cert.KernelIdeal.Acc.res7 m c)
      (Cert.KernelIdeal.Acc.res8 m c) (Cert.KernelIdeal.Acc.res9 m c) (Cert.KernelIdeal.Acc.res10 m c),
    fun c => Cert.KernelIdeal.Acc.positionLoss (Cert.KernelIdeal.Acc.res6 m c) (Cert.KernelIdeal.Acc.res7 m c),
    fun c => Cert.KernelIdeal.Acc.meanSum (Cert.KernelIdeal.Acc.res8 m c) 0x487FF000#32,
    fun c => Cert.KernelIdeal.Acc.meanOne (Cert.KernelIdeal.Acc.res10 m c) 0x48800000#32,
    Cert.KernelIdeal.Acc.run (F := Ideal) m ρ, ?_⟩
  refine (θ_run Cert.ReferenceIdeal.defs _ _).mono (fun _ h c => ?_) (Cert.ReferenceIdeal.Value.run (F := Ideal) m' ρ')
  obtain ⟨hP, hC, hMn, hSd⟩ := Cert.Pre_finite_inputs.Real.reals _ _ _ _ _ _ (hpre c)
  obtain ⟨e0, e1, e2, e3, e4, e5⟩ := hagree c
  refine ⟨(h c).1.trans ?_, (h c).2.1.trans ?_, (h c).2.2.1.trans ?_, (h c).2.2.2.1.trans ?_, (h c).2.2.2.2⟩
  · refine (Cert.ReferenceIdeal.Read.val_main_v83_eq m' c).trans ?_
    rw [e0, e1, e2, e3, e4, e5]
    exact Cert.Bridge.total_eq m c hP hC hMn hSd
  · refine (Cert.ReferenceIdeal.Read.val_main_v19_eq _ _).trans ?_
    rw [e0, e1]
    exact Cert.Bridge.position_eq m c
  · refine (Cert.ReferenceIdeal.Read.val_main_v31_eq _ _).trans ?_
    rw [e0, e1]
    exact Cert.Bridge.velocity_eq m c
  · refine (Cert.ReferenceIdeal.Read.val_main_v77_eq m' c).trans ?_
    rw [e0, e2, e3, e4, e5]
    exact Cert.Bridge.obstacle_eq m c hP hC hMn hSd

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
